-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v57)) (v4 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S300000x64 : Shape := ⟨2, ![300000, 64]⟩
abbrev S150000x64 : Shape := ⟨2, ![150000, 64]⟩
abbrev S50000x64 : Shape := ⟨2, ![50000, 64]⟩
abbrev S10000x64 : Shape := ⟨2, ![10000, 64]⟩
abbrev S2x800000 : Shape := ⟨2, ![2, 800000]⟩
abbrev S600000 : Shape := ⟨1, ![600000]⟩
abbrev S200000 : Shape := ⟨1, ![200000]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S150000x64 : S_.BroadcastsInDim S150000x64 (![] : Fin 0 → Fin S150000x64.rank)
  reducesTo_S150000x64_S_d0_1 : S150000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg13 : FVec F S64x128 .f32) (main_arg14 : FVec F S64x128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S64x128 .f32 := Host.absf main_arg13
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg14
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_v48 main_v49 main_v50

def fn_part1 {F : FTy → Type} [FloatOps F] (main_arg4 : FVec F S10000x64 .f32) (main_arg11 : FVec F S64x128 .f32) (main_arg12 : FVec F S64x128 .f32) (main_arg13 : FVec F S64x128 .f32) (main_arg14 : FVec F S64x128 .f32) (main_arg15 : FVec F S128x128 .f32) (main_arg16 : FVec F S128 .f32) (main_arg17 : FVec F S128x128 .f32) (main_arg18 : FVec F S128 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S10000x64 .f32 := Host.absf main_arg4
  let main_cst_6 : FVec F S_ .f32 := constant S_ .f32 0x7F800000#32
  let main_v20 : FVec F S10000x64 .f32 := broadcastInDim S10000x64 ![] bcast_S_S10000x64 main_cst_6
  let main_v21 : IVec S10000x64 1 := cmpf .olt main_v19 main_v20
  let main_c_7 : IVec S_ 1 := constantI S_ 1 1#1
  let main_v22 : IVec S_ 1 := (fun x v => Host.reduce IntOp.andi x v reducesTo_S10000x64_S_d0_1 h_S_) main_v21 main_c_7
  let main_v23 : IVec S_ 1 := andi main_v18 main_v22
  let main_v24 : FVec F S64x128 .f32 := Host.absf main_arg11
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg12
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S100000x64 .f32) (main_arg1 : FVec F S300000x64 .f32) (main_arg2 : FVec F S150000x64 .f32) (main_arg3 : FVec F S50000x64 .f32) (main_arg4 : FVec F S10000x64 .f32) (main_arg5 : IVec S2x800000 32) (main_arg6 : IVec S2x800000 32) (main_arg7 : IVec S600000 32) (main_arg8 : IVec S600000 32) (main_arg9 : IVec S200000 32) (main_arg10 : IVec S200000 32) (main_arg11 : FVec F S64x128 .f32) (main_arg12 : FVec F S64x128 .f32) (main_arg13 : FVec F S64x128 .f32) (main_arg14 : FVec F S64x128 .f32) (main_arg15 : FVec F S128x128 .f32) (main_arg16 : FVec F S128 .f32) (main_arg17 : FVec F S128x128 .f32) (main_arg18 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S150000x64 .f32 := Host.absf main_arg2
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg4 main_arg11 main_arg12 main_arg13 main_arg14 main_arg15 main_arg16 main_arg17 main_arg18 main_v13 main_v16
-- ==== Kernel.lean ====
abbrev S100000x64 : Shape := ⟨2, ![100000, 64]⟩
abbrev S300000x64 : Shape := ⟨2, ![300000, 64]⟩
abbrev S150000x64 : Shape := ⟨2, ![150000, 64]⟩
abbrev S50000x64 : Shape := ⟨2, ![50000, 64]⟩
abbrev S10000x64 : Shape := ⟨2, ![10000, 64]⟩
abbrev S2x800000 : Shape := ⟨2, ![2, 800000]⟩
abbrev S600000 : Shape := ⟨1, ![600000]⟩
abbrev S200000 : Shape := ⟨1, ![200000]⟩
abbrev S64x128 : Shape := ⟨2, ![64, 128]⟩
abbrev S128x128 : Shape := ⟨2, ![128, 128]⟩
abbrev S128 : Shape := ⟨1, ![128]⟩
abbrev S100000x128 : Shape := ⟨2, ![100000, 128]⟩
abbrev S10000x128 : Shape := ⟨2, ![10000, 128]⟩
abbrev S50000x128 : Shape := ⟨2, ![50000, 128]⟩
abbrev S300000x128 : Shape := ⟨2, ![300000, 128]⟩
abbrev S150000x128 : Shape := ⟨2, ![150000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S600000x1 : Shape := ⟨2, ![600000, 1]⟩
abbrev S600000x128 : Shape := ⟨2, ![600000, 128]⟩
abbrev S200000x1 : Shape := ⟨2, ![200000, 1]⟩
abbrev S200000x128 : Shape := ⟨2, ![200000, 128]⟩
abbrev S1x128 : Shape := ⟨2, ![1, 128]⟩
abbrev S5000x128 : Shape := ⟨2, ![5000, 128]⟩

abbrev nBuf : Space → Nat
  | .hbm => 89
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S300000x64, .f32⟩
  | .hbm, ⟨2, _⟩ => ⟨S150000x64, .f32⟩
  | .hbm, ⟨3, _⟩ => ⟨S50000x64, .f32⟩
  | .hbm, ⟨4, _⟩ => ⟨S10000x64, .f32⟩
  | .hbm, ⟨5, _⟩ => ⟨S2x800000, .i32⟩
  | .hbm, ⟨6, _⟩ => ⟨S2x800000, .i32⟩
  | .hbm, ⟨7, _⟩ => ⟨S600000, .i32⟩
  | .hbm, ⟨8, _⟩ => ⟨S600000, .i32⟩
  | .hbm, ⟨9, _⟩ => ⟨S200000, .i32⟩
  | .hbm, ⟨10, _⟩ => ⟨S200000, .i32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S100000x128, .f32⟩
  | .hbm, ⟨20, _⟩ => ⟨S50000x128, .f32⟩
  | .hbm, ⟨21, _⟩ => ⟨S300000x128, .f32⟩
  | .hbm, ⟨22, _⟩ => ⟨S150000x128, .f32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S1x800000, .i32⟩
  | .hbm, ⟨35, _⟩ => ⟨S800000, .i32⟩
  | .hbm, ⟨36, _⟩ => ⟨S_, .f32⟩
  | .hbm, ⟨37, _⟩ => ⟨S100000x128, .f32⟩
  | .hbm, ⟨38, _⟩ => ⟨S800000x1, .i32⟩
  | .hbm, ⟨39, _⟩ => ⟨S100000x128, .f32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S1x800000, .i32⟩
  | .hbm, ⟨52, _⟩ => ⟨S800000, .i32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S100000x128, .f32⟩
  | .hbm, ⟨68, _⟩ => ⟨S600000x1, .i32⟩
  | .hbm, ⟨69, _⟩ => ⟨S100000x128, .f32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S200000x1, .i32⟩
  | .hbm, ⟨78, _⟩ => ⟨S200000x128, .f32⟩
  | .hbm, ⟨79, _⟩ => ⟨S_, .f32⟩
  | .hbm, ⟨80, _⟩ => ⟨S50000x128, .f32⟩
  | .hbm, ⟨81, _⟩ => ⟨S200000x1, .i32⟩
  | .hbm, ⟨82, _⟩ => ⟨S50000x128, .f32⟩
  | .hbm, ⟨83, _⟩ => ⟨S128x128, .f32⟩
  | .hbm, ⟨84, _⟩ => ⟨S1x128, .f32⟩
  | .hbm, ⟨85, _⟩ => ⟨S100000x128, .f32⟩
  | .hbm, ⟨86, _⟩ => ⟨S128x128, .f32⟩
  | .hbm, ⟨87, _⟩ => ⟨S1x128, .f32⟩
  | .hbm, ⟨88, _⟩ => ⟨S50000x128, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x64, .f32⟩
  | .local _ .vmem, ⟨6, _⟩ => ⟨S10000x64, .f32⟩
  | .local _ .vmem, ⟨7, _⟩ => ⟨S64x128, .f32⟩
  | .local _ .vmem, ⟨8, _⟩ => ⟨S10000x128, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S10000x128, .f32⟩
  | .local _ .vmem, ⟨14, _⟩ => ⟨S10000x128, .f32⟩
  | .local _ .vmem, ⟨15, _⟩ => ⟨S10000x64, .f32⟩
  | .local _ .vmem, ⟨16, _⟩ => ⟨S10000x64, .f32⟩
  | .local _ .vmem, ⟨17, _⟩ => ⟨S64x128, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem4_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  bcast_S_S100000x128 : S_.BroadcastsInDim S100000x128 (![] : Fin 0 → Fin S100000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000 : S_.BroadcastsInDim S200000 (![] : Fin 0 → Fin S200000.rank)
  bcast_S200000_S200000x1_0 : S200000.BroadcastsInDim S200000x1 (![0] : Fin 1 → Fin S200000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S10000x64_S64x128_S10000x128_1_0_0_1_n_n_wf : DotDims.WF S10000x64 S64x128 S10000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S300000x128_S600000x1_S600000x128_1_0_n_n_0_1_1128_wf : GatherDims.WF S300000x128 S600000x1 S600000x128 [1] [0] [] [0] [] 1 ![1, 128]
  scatter_S100000x128_S600000x1_S600000x128_1_0_0_1_wf : ScatterDims.WF S100000x128 S600000x1 S600000x128 [1] [0] [0] 1
  gather_S150000x128_S200000x1_S200000x128_1_0_n_n_0_1_1128_wf : GatherDims.WF S150000x128 S200000x1 S200000x128 [1] [0] [] [0] [] 1 ![1, 128]
  scatter_S50000x128_S200000x1_S200000x128_1_0_0_1_wf : ScatterDims.WF S50000x128 S200000x1 S200000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S300000x64.size a
  hwx2_0 : ∀ i : grid2.Coords, EltTy.bits .f32 = 32 ∨ (Rect.block (s := S300000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S300000x128.size a
  hwx2_2 : ∀ i : grid2.Coords, EltTy.bits .f32 = 32 ∨ (Rect.block (s := S300000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S150000x128.size a
  hwx3_2 : ∀ i : grid3.Coords, EltTy.bits .f32 = 32 ∨ (Rect.block (s := S150000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S150000x128_S200000x1_S200000x128_1_0_n_n_0_1_1128 : GatherDims S150000x128 S200000x1 S200000x128 where
  offsetDims := [1]
  collapsedSliceDims := [0]
  operandBatchingDims := []
  startIndicesBatchingDims := []
  startIndexMap := [0]
  indexVectorDim := 1
  sliceSizes := ![1, 128]
  wf := gather_S150000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v17) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v51) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S300000x64 : Shape := ⟨2, ![300000, 64]⟩
abbrev S150000x64 : Shape := ⟨2, ![150000, 64]⟩
abbrev S50000x64 : Shape := ⟨2, ![50000, 64]⟩
abbrev S10000x64 : Shape := ⟨2, ![10000, 64]⟩
abbrev S2x800000 : Shape := ⟨2, ![2, 800000]⟩
abbrev S600000 : Shape := ⟨1, ![600000]⟩
abbrev S200000 : Shape := ⟨1, ![200000]⟩
abbrev S64x128 : Shape := ⟨2, ![64, 128]⟩
abbrev S128x128 : Shape := ⟨2, ![128, 128]⟩
abbrev S128 : Shape := ⟨1, ![128]⟩
abbrev S100000x128 : Shape := ⟨2, ![100000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S300000x128 : Shape := ⟨2, ![300000, 128]⟩
abbrev S600000x1 : Shape := ⟨2, ![600000, 1]⟩
abbrev S600000x128 : Shape := ⟨2, ![600000, 128]⟩
abbrev S150000x128 : Shape := ⟨2, ![150000, 128]⟩
abbrev S200000x1 : Shape := ⟨2, ![200000, 1]⟩
abbrev S200000x128 : Shape := ⟨2, ![200000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S300000x64, .f32⟩
  | .hbm, ⟨2, _⟩ => ⟨S150000x64, .f32⟩
  | .hbm, ⟨3, _⟩ => ⟨S50000x64, .f32⟩
  | .hbm, ⟨4, _⟩ => ⟨S10000x64, .f32⟩
  | .hbm, ⟨5, _⟩ => ⟨S2x800000, .i32⟩
  | .hbm, ⟨6, _⟩ => ⟨S2x800000, .i32⟩
  | .hbm, ⟨7, _⟩ => ⟨S600000, .i32⟩
  | .hbm, ⟨8, _⟩ => ⟨S600000, .i32⟩
  | .hbm, ⟨9, _⟩ => ⟨S200000, .i32⟩
  | .hbm, ⟨10, _⟩ => ⟨S200000, .i32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S100000x128, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S100000x128, .f32⟩
  | .hbm, ⟨35, _⟩ => ⟨S800000x1, .i32⟩
  | .hbm, ⟨36, _⟩ => ⟨S100000x128, .f32⟩
  | .hbm, ⟨37, _⟩ => ⟨S50000x128, .f32⟩
  | .hbm, ⟨38, _⟩ => ⟨S1x800000, .i32⟩
  | .hbm, ⟨39, _⟩ => ⟨S800000, .i32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S300000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S100000x128, .f32⟩
  | .hbm, ⟨67, _⟩ => ⟨S600000x1, .i32⟩
  | .hbm, ⟨68, _⟩ => ⟨S100000x128, .f32⟩
  | .hbm, ⟨69, _⟩ => ⟨S150000x128, .f32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S200000x1, .i32⟩
  | .hbm, ⟨78, _⟩ => ⟨S200000x128, .f32⟩
  | .hbm, ⟨79, _⟩ => ⟨S_, .f32⟩
  | .hbm, ⟨80, _⟩ => ⟨S50000x128, .f32⟩
  | .hbm, ⟨81, _⟩ => ⟨S200000x1, .i32⟩
  | .hbm, ⟨82, _⟩ => ⟨S50000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S_, .f32⟩
  | .hbm, ⟨91, _⟩ => ⟨S100000x128, .f32⟩
  | .hbm, ⟨92, _⟩ => ⟨S100000x128, .i1⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S50000x128, .f32⟩
  | .hbm, ⟨98, _⟩ => ⟨S128x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S_, .f32⟩
  | .hbm, ⟨105, _⟩ => ⟨S50000x128, .f32⟩
  | .hbm, ⟨106, _⟩ => ⟨S50000x128, .i1⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S50000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_11 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v65 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000 : S_.BroadcastsInDim S200000 (![] : Fin 0 → Fin S200000.rank)
  bcast_S200000_S200000x1_0 : S200000.BroadcastsInDim S200000x1 (![0] : Fin 1 → Fin S200000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S300000x64_S64x128_S300000x128_1_0_0_1_n_n_wf : DotDims.WF S300000x64 S64x128 S300000x128 [1] [0] [0] [1] [] []
  gather_S300000x128_S600000x1_S600000x128_1_0_n_n_0_1_1128_wf : GatherDims.WF S300000x128 S600000x1 S600000x128 [1] [0] [] [0] [] 1 ![1, 128]
  scatter_S100000x128_S600000x1_S600000x128_1_0_0_1_wf : ScatterDims.WF S100000x128 S600000x1 S600000x128 [1] [0] [0] 1
  dot_S150000x64_S64x128_S150000x128_1_0_0_1_n_n_wf : DotDims.WF S150000x64 S64x128 S150000x128 [1] [0] [0] [1] [] []
  gather_S150000x128_S200000x1_S200000x128_1_0_n_n_0_1_1128_wf : GatherDims.WF S150000x128 S200000x1 S200000x128 [1] [0] [] [0] [] 1 ![1, 128]
  scatter_S50000x128_S200000x1_S200000x128_1_0_0_1_wf : ScatterDims.WF S50000x128 S200000x1 S200000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S300000x64_S64x128_S300000x128_1_0_0_1_n_n : DotDims S300000x64 S64x128 S300000x128 where
  lhsContracting := [1]
  rhsContracting := [0]
  lhsNonContracting := [0]
  rhsNonContracting := [1]
  lhsBatch := []
  rhsBatch := []
  wf := dot_S300000x64_S64x128_S300000x128_1_0_0_1_n_n_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S150000x64_S64x128_S150000x128_1_0_0_1_n_n : DotDims S150000x64 S64x128 S150000x128 where
  lhsContracting := [1]
  rhsContracting := [0]
  lhsNonContracting := [0]
  rhsNonContracting := [1]
  lhsBatch := []
  rhsBatch := []
  wf := dot_S150000x64_S64x128_S150000x128_1_0_0_1_n_n_wf
def gather_S150000x128_S200000x1_S200000x128_1_0_n_n_0_1_1128 : GatherDims S150000x128 S200000x1 S200000x128 where
  offsetDims := [1]
  collapsedSliceDims := [0]
  operandBatchingDims := []
  startIndicesBatchingDims := []
  startIndexMap := [0]
  indexVectorDim := 1
  sliceSizes := ![1, 128]
  wf := gather_S150000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The functions both programs compute, written once over whole arrays at the exact instance.

  A projection is the product `x · W` of a feature matrix with a 64 × 128 weight. The layer's output at rank 0
  (100000 cells) and rank 3 (50000 cells) is `leaky((a + b) · Wᵀ + bias)`, where `a` and `b` are two
  aggregated messages, `Wᵀ` the transposed 128 × 128 weight, `bias` a row added to every row, and
  `leaky y = y` where `y ≥ 0`, `0.2 · y` elsewhere. The aggregation between the two (gather the projected
  rows named by an edge list, add them into the rows named by the other end of each edge) is the same chain of host
  operations in both programs and is never opened.
-/
import proofs.«115586_j31001073942736_1_alg».proof.ReferenceIdeal
import proofs.«115586_j31001073942736_1_alg».proof.Proof.Gen.ReferenceIdeal
import Idealize.ShloMosaic.PureOps.Ideal

noncomputable section

namespace Cert.Spec

open Idealize.ShloMosaic Cert.ReferenceIdeal Cert.ReferenceIdeal.Facts₀

/-! ## Projections `x · W` -/

def proj0 (x : FVec Ideal S100000x64 .f32) (w : FVec Ideal S64x128 .f32) : FVec Ideal S100000x128 .f32 :=
  Host.dotGeneral dot_S100000x64_S64x128_S100000x128_1_0_0_1_n_n none x w

def proj3 (x : FVec Ideal S50000x64 .f32) (w : FVec Ideal S64x128 .f32) : FVec Ideal S50000x128 .f32 :=
  Host.dotGeneral dot_S50000x64_S64x128_S50000x128_1_0_0_1_n_n none x w

def proj1 (x : FVec Ideal S300000x64 .f32) (w : FVec Ideal S64x128 .f32) : FVec Ideal S300000x128 .f32 :=
  Host.dotGeneral dot_S300000x64_S64x128_S300000x128_1_0_0_1_n_n none x w

def proj2 (x : FVec Ideal S150000x64 .f32) (w : FVec Ideal S64x128 .f32) : FVec Ideal S150000x128 .f32 :=
  Host.dotGeneral dot_S150000x64_S64x128_S150000x128_1_0_0_1_n_n none x w

/-! ## The affine map `(a + b) · Wᵀ + bias` and the leaky rectifier, at 100000 and at 50000 rows -/

def lin0 (a b : FVec Ideal S100000x128 .f32) (wt : FVec Ideal S128x128 .f32) (bias : FVec Ideal S1x128 .f32) :
    FVec Ideal S100000x128 .f32 :=
  addf (Host.dotGeneral dot_S100000x128_S128x128_S100000x128_1_0_0_1_n_n none (addf a b) wt)
    (broadcastInDim S100000x128 ![0, 1] bcast_S1x128_S100000x128_0_1 bias)

def leaky0 (y : FVec Ideal S100000x128 .f32) : FVec Ideal S100000x128 .f32 :=
  select (cmpf .oge y (broadcastInDim S100000x128 ![] bcast_S_S100000x128 (constant S_ .f32 0x00000000#32))) y
    (mulf (broadcastInDim S100000x128 ![] bcast_S_S100000x128 (id (constant S_ .f32 0x3E4CCCCD#32))) y)

def fc0 (a b : FVec Ideal S100000x128 .f32) (wt : FVec Ideal S128x128 .f32) (bias : FVec Ideal S1x128 .f32) :
    FVec Ideal S100000x128 .f32 :=
  leaky0 (lin0 a b wt bias)

def lin3 (a b : FVec Ideal S50000x128 .f32) (wt : FVec Ideal S128x128 .f32) (bias : FVec Ideal S1x128 .f32) :
    FVec Ideal S50000x128 .f32 :=
  addf (Host.dotGeneral dot_S50000x128_S128x128_S50000x128_1_0_0_1_n_n none (addf a b) wt)
    (broadcastInDim S50000x128 ![0, 1] bcast_S1x128_S50000x128_0_1 bias)

def leaky3 (y : FVec Ideal S50000x128 .f32) : FVec Ideal S50000x128 .f32 :=
  select (cmpf .oge y (broadcastInDim S50000x128 ![] bcast_S_S50000x128 (constant S_ .f32 0x00000000#32))) y
    (mulf (broadcastInDim S50000x128 ![] bcast_S_S50000x128 (id (constant S_ .f32 0x3E4CCCCD#32))) y)

def fc3 (a b : FVec Ideal S50000x128 .f32) (wt : FVec Ideal S128x128 .f32) (bias : FVec Ideal S1x128 .f32) :
    FVec Ideal S50000x128 .f32 :=
  leaky3 (lin3 a b wt bias)

/-! ## Aggregation along an edge list: gather the rows named by one end of every edge, add them into the rows named by the other end

An index below zero counts from the end (the host adds the row count to it); the edge list of a rank's own adjacency is one
`2 × 800000` array, row 0 the destinations and row 1 the sources; an incidence is two separate index vectors. -/

def edgeDst (e : IVec S2x800000 32) : IVec S800000 32 :=
  shapeCast S800000 (extractStridedSlice S1x800000 ![0, 0] e slices_S2x800000_S1x800000_0_0) shapeCasts_S1x800000_S800000

def edgeSrc (e : IVec S2x800000 32) : IVec S800000 32 :=
  shapeCast S800000 (extractStridedSlice S1x800000 ![1, 0] e slices_S2x800000_S1x800000_1_0) shapeCasts_S1x800000_S800000

def wrap800k (n : BitVec 32) (i : IVec S800000 32) : IVec S800000 32 :=
  select (cmpi .slt i (broadcastInDim S800000 ![] bcast_S_S800000 (constantI S_ 32 0#32)))
    (addi i (broadcastInDim S800000 ![] bcast_S_S800000 (constantI S_ 32 n))) i

def wrap600k (n : BitVec 32) (i : IVec S600000 32) : IVec S600000 32 :=
  select (cmpi .slt i (broadcastInDim S600000 ![] bcast_S_S600000 (constantI S_ 32 0#32)))
    (addi i (broadcastInDim S600000 ![] bcast_S_S600000 (constantI S_ 32 n))) i

def wrap200k (n : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 n))) i

/-- Rank 0's own adjacency: `out[dst e] += p[src e]` over the 800000 edges. -/
def agg00 (p : FVec Ideal S100000x128 .f32) (e : IVec S2x800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 (edgeDst e))
    (Host.gather gather_S100000x128_S800000x1_S800000x128_1_0_n_n_0_1_1128 p
      (broadcastInDim S800000x1 ![0] bcast_S800000_S800000x1_0 (wrap800k 100000#32 (edgeSrc e))))

/-- Rank 3's own adjacency. -/
def agg33 (p : FVec Ideal S50000x128 .f32) (e : IVec S2x800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (edgeDst e))
    (Host.gather gather_S50000x128_S800000x1_S800000x128_1_0_n_n_0_1_1128 p
      (broadcastInDim S800000x1 ![0] bcast_S800000_S800000x1_0 (wrap800k 50000#32 (edgeSrc e))))

/-- Rank 1 into rank 0 along the incidence: `out[t e] += p[s e]` over the 600000 pairs. -/
def agg10 (p : FVec Ideal S300000x128 .f32) (t s : IVec S600000 32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 t)
    (Host.gather gather_S300000x128_S600000x1_S600000x128_1_0_n_n_0_1_1128 p
      (broadcastInDim S600000x1 ![0] bcast_S600000_S600000x1_0 (wrap600k 300000#32 s)))

/-- Rank 2 into rank 3 along the incidence: `out[s e] += p[t e]` over the 200000 pairs. -/
def agg23 (p : FVec Ideal S150000x128 .f32) (t s : IVec S200000 32) : FVec Ideal S50000x128 .f32 :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 s)
    (Host.gather gather_S150000x128_S200000x1_S200000x128_1_0_n_n_0_1_1128 p
      (broadcastInDim S200000x1 ![0] bcast_S200000_S200000x1_0 (wrap200k 150000#32 t)))

/-! ## The two computed results of the layer -/

/-- The new rank-0 features. -/
def out0 (x0 : FVec Ideal S100000x64 .f32) (x1 : FVec Ideal S300000x64 .f32) (e0 : IVec S2x800000 32) (t01 s01 : IVec S600000 32)
    (w0 w1 : FVec Ideal S64x128 .f32) (fw : FVec Ideal S128x128 .f32) (fb : FVec Ideal S128 .f32) : FVec Ideal S100000x128 .f32 :=
  fc0 (agg00 (proj0 x0 w0) e0) (agg10 (proj1 x1 w1) t01 s01)
    (transpose S128x128 [1, 0] fw transposes_S128x128_S128x128_1_0) (broadcastInDim S1x128 ![1] bcast_S128_S1x128_1 fb)

/-- The new rank-3 features. -/
def out3 (x2 : FVec Ideal S150000x64 .f32) (x3 : FVec Ideal S50000x64 .f32) (e3 : IVec S2x800000 32) (t23 s23 : IVec S200000 32)
    (w2 w3 : FVec Ideal S64x128 .f32) (fw : FVec Ideal S128x128 .f32) (fb : FVec Ideal S128 .f32) : FVec Ideal S50000x128 .f32 :=
  fc3 (agg23 (proj2 x2 w2) t23 s23) (agg33 (proj3 x3 w3) e3)
    (transpose S128x128 [1, 0] fw transposes_S128x128_S128x128_1_0) (broadcastInDim S1x128 ![1] bcast_S128_S1x128_1 fb)

end Cert.Spec

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowSelect.lean ====
/-
  Row blocks under a comparison with a constant and a select, at the exact instance.

  If `a` is the `t`-th row block of `A` (rows `B·t, …, B·t + B − 1`), then so is every entrywise
  function of it: an entry's comparison against a constant, a select between two entrywise results, and in
  particular the leaky rectifier `x ↦ x` where `x ≥ z`, `c·x` elsewhere. Together with the product
  lemma (row `r` of `L·R` needs row `r` of `L` only) this reads a kernel that computes
  `leaky(L_block · R)` block by block against the host's `leaky(L · R)`.
-/
import proofs.«115586_j31001073942736_1_alg».proof.Proof.LibRowBlock

noncomputable section

namespace Cert.RowBlock

open Idealize.ShloMosaic Idealize.ShloMosaic.ValueIdx

namespace IsRows

variable {N n B t : Nat}

/-- An entrywise comparison of row blocks is the row block of the comparison. -/
theorem cmp {φ : FTy} {A A' : FVec Ideal ⟨2, ![N, n]⟩ φ} {a a' : FVec Ideal ⟨2, ![B, n]⟩ φ}
    (H : IsRows B t A a) (H' : IsRows B t A' a') (p : CmpFPredicate) : IsRows B t (cmpf p A A') (cmpf p a a') := by
  intro q j r hr
  rw [cmpf_apply, cmpf_apply, H q j r hr, H' q j r hr]

/-- An entrywise select between row blocks, on a row block of conditions, is the row block of the select. -/
theorem sel {α : Type} {C : IVec ⟨2, ![N, n]⟩ 1} {c : IVec ⟨2, ![B, n]⟩ 1}
    {X Y : (⟨2, ![N, n]⟩ : Shape).Idx → α} {x y : (⟨2, ![B, n]⟩ : Shape).Idx → α}
    (HC : IsRows B t C c) (HX : IsRows B t X x) (HY : IsRows B t Y y) : IsRows B t (select C X Y) (select c x y) := by
  intro q j r hr
  rw [select_apply, select_apply, HC q j r hr, HX q j r hr, HY q j r hr]

/-- A scalar constant the host converts to its own type and then broadcasts: still the constant in every entry. -/
theorem splat_id (φ : FTy) (w : BitVec φ.bits) (h : (⟨0, ![]⟩ : Shape).BroadcastsInDim ⟨2, ![N, n]⟩ ![]) :
    IsRows B t (broadcastInDim ⟨2, ![N, n]⟩ ![] h (id (constant (F := Ideal) ⟨0, ![]⟩ φ w)))
      (broadcast ⟨2, ![B, n]⟩ (Scalar.ofBits (F := Ideal) φ w)) :=
  fun _ _ _ _ => rfl

/-- THE LEAKY RECTIFIER OF A PRODUCT, block against whole: with `O = L·R` on the host and `o = l·r` into a zero
    accumulator on a row block `l` of `L` (`r` and `R` the same matrix), `select (o ≥ z) o (c·o)` is the row block
    of `select (O ≥ z) O (c·O)`, `z` and `c` the same words on both sides. -/
theorem leaky_dot {K M : Nat} {L : FVec Ideal ⟨2, ![N, K]⟩ .f32} {l : FVec Ideal ⟨2, ![B, K]⟩ .f32} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R r : FVec Ideal ⟨2, ![K, M]⟩ .f32) (hR : ∀ k j, r (ix2 k j) = R (ix2 k j))
    (hb : (⟨0, ![]⟩ : Shape).BroadcastsInDim ⟨2, ![N, M]⟩ ![]) (z c : BitVec 32) :
    IsRows B t
      (select (cmpf .oge (Host.dotGeneral D none L R) (broadcastInDim ⟨2, ![N, M]⟩ ![] hb (constant (F := Ideal) ⟨0, ![]⟩ .f32 z)))
        (Host.dotGeneral D none L R)
        (mulf (broadcastInDim ⟨2, ![N, M]⟩ ![] hb (id (constant (F := Ideal) ⟨0, ![]⟩ .f32 c))) (Host.dotGeneral D none L R)))
      (select (cmpf .oge (matmul d none l r (constant ⟨2, ![B, M]⟩ .f32 0x00000000#32)) (broadcast ⟨2, ![B, M]⟩ (Scalar.ofBits (F := Ideal) .f32 z)))
        (matmul d none l r (constant ⟨2, ![B, M]⟩ .f32 0x00000000#32))
        (mulf (broadcast ⟨2, ![B, M]⟩ (Scalar.ofBits (F := Ideal) .f32 c)) (matmul d none l r (constant ⟨2, ![B, M]⟩ .f32 0x00000000#32)))) :=
  have HO := dot H D d hD hd R r hR
  sel (cmp HO (splat .f32 z hb) .oge) HO (mul (splat_id .f32 c hb) HO)

end IsRows

/-- A matrix is its own (only) row block of full height: the hypothesis a whole-matrix operand meets. -/
theorem isRows_self {α : Type} {N n : Nat} (A : (⟨2, ![N, n]⟩ : Shape).Idx → α) : IsRows N 0 A A := by
  intro p j r hr
  have e : r = p := Fin.ext (by omega)
  rw [e]

end Cert.RowBlock

end
-- ==== Proof.Region0.lean ====
/-
  Region 0: the product of the 100000 × 64 rank-0 features with their weight, ten row blocks of 10000.

  At grid point t the kernel loads rows 10000·t … 10000·t + 9999 of the features and the whole 64 × 128 weight,
  multiplies the two (each first changed to a narrower float format, which is the identity on extended reals; the
  product accumulates into zero) and writes the result back as rows 10000·t … 10000·t + 9999 of the output. Row r of a
  product L·W depends on row r of L only, so the block written at t is the t-th row block of the whole product; the ten
  blocks tile the 100000 rows (row r lies in block r / 10000), so after the last write-back the output is the whole product.
-/
import proofs.«115586_j31001073942736_1_alg».proof.Proof.KernelIdealFrame
import proofs.«115586_j31001073942736_1_alg».proof.Proof.Spec
import proofs.«115586_j31001073942736_1_alg».proof.Proof.LibRowSelect

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP

open Cert.RowBlock in
/-- The body's arithmetic on a row block: if x is rows 10000·t … of X and w is W entry by entry, the product the body
    forms of x and w is rows 10000·t … of the whole product X·W. -/
theorem pay_rows_r0 (X : FVec Ideal S100000x64 .f32) (W : FVec Ideal S64x128 .f32) (t : Nat)
    (x : Vec Ideal S10000x64 .f32) (w : Vec Ideal S64x128 .f32)
    (hx : IsRows 10000 t X x) (hw : ∀ (k : Fin 64) (j : Fin 128), w (ix2 k j) = W (ix2 k j)) :
    IsRows 10000 t (Cert.Spec.proj0 X W) (k0_pay1 x w) := by
  unfold k0_pay1 Cert.Spec.proj0
  exact IsRows.dot (IsRows.trunc hx _) _ _ ⟨rfl, rfl, rfl, rfl, rfl, rfl⟩ ⟨rfl, rfl, rfl, rfl, rfl, rfl⟩ W _ hw

/-- Zero offsets on both axes, however the zeros are spelt. -/
theorem zero_off_r0 : (![0, 0] : Fin 2 → Nat) = fun _ => 0 := funext fun a => by fin_cases a <;> rfl

/-- The printed index maps, decided once over the grid: at point t the feature window and the output window sit at
    block row t, block column 0; the weight window is always its one block. -/
theorem blk_index_r0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

open Cert.RowBlock in
/-- The feature window's block at point t is rows 10000·t … 10000·t + 9999 of the features. -/
theorem x_rows_r0 (V : (c : Dev nD) → (b : Ref sig .tc) → Buf (Elt Ideal) ((c : Thread nD τ).loc b)) (c : Dev nD)
    (t : Fin cfg0.N) :
    IsRows 10000 t.val (V c main_arg0 : FVec Ideal S100000x64 .f32) (iblk0 V c 0 t : Vec Ideal S10000x64 .f32) := by
  intro p j r hr
  obtain ⟨e0, e1, -, -, -, -⟩ := blk_index_r0 t
  unfold iblk0
  show V c main_arg0 (((cfg0.win 0).blk t).view.emb (ix2 p j)) = V c main_arg0 (ix2 r j)
  refine congrArg _ (funext fun a => Fin.ext ?_)
  match a with
  | ⟨0, _⟩ => show win0_0.index t (0 : Fin 2) * 10000 + 1 * p.val = r.val; omega
  | ⟨1, _⟩ => show win0_0.index t (1 : Fin 2) * 64 + 1 * j.val = j.val; omega

/-- The weight window's block at every point is the whole weight. -/
theorem w_whole_r0 (V : (c : Dev nD) → (b : Ref sig .tc) → Buf (Elt Ideal) ((c : Thread nD τ).loc b)) (c : Dev nD)
    (t : Fin cfg0.N) (k : Fin 64) (j : Fin 128) :
    (iblk0 V c 1 t : Vec Ideal S64x128 .f32) (ix2 k j) = (V c main_arg11 : FVec Ideal S64x128 .f32) (ix2 k j) := by
  obtain ⟨-, -, e0, e1, -, -⟩ := blk_index_r0 t
  unfold iblk0
  show V c main_arg11 (((cfg0.win 1).blk t).view.emb (ix2 k j)) = V c main_arg11 (ix2 k j)
  refine congrArg _ (funext fun a => Fin.ext ?_)
  match a with
  | ⟨0, _⟩ => show win0_1.index t (0 : Fin 2) * 64 + 1 * k.val = k.val; omega
  | ⟨1, _⟩ => show win0_1.index t (1 : Fin 2) * 128 + 1 * j.val = j.val; omega

open Cert.RowBlock in
/-- WHAT POINT t WRITES BACK is block t of the whole product: the body's result on the two input blocks, read at row p
    and column q of the block, is the product at row 10000·t + p and column q, which is where the output window's
    block puts that entry. -/
theorem flushed_r0 (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.proj0 (V c main_arg0) (V c main_arg11)) := by
  show (cfg0.win 2).cut (grid0.coords t) ((dat0 (F := Ideal) V c).after 2 t) = _
  rw [after0_2]
  unfold out0_2
  rw [View.canon_unit_zero zero_off_r0]
  simp only [View.ld_unit_zero (S := S10000x64) zero_off_r0, View.ld_unit_zero (S := S64x128) zero_off_r0]
  have hN : cfg0.N = 10 := N_0
  have ht : t.val < 10 := hN ▸ t.isLt
  obtain ⟨-, -, -, -, e0, e1⟩ := blk_index_r0 t
  funext y
  obtain ⟨p, q, rfl⟩ : ∃ (p : Fin 10000) (q : Fin 128), y = ix2 p q := ⟨y 0, y 1, eq_ix2 y⟩
  have hr : 10000 * t.val + p.val < 100000 := by have := p.isLt; omega
  refine (pay_rows_r0 (V c main_arg0) (V c main_arg11) t.val (iblk0 V c 0 t) (iblk0 V c 1 t) (x_rows_r0 V c t)
    (w_whole_r0 V c t) p q ⟨10000 * t.val + p.val, hr⟩ rfl).trans ?_
  show Cert.Spec.proj0 (V c main_arg0) (V c main_arg11) _
    = Cert.Spec.proj0 (V c main_arg0) (V c main_arg11) (((cfg0.win 2).blk t).view.emb (ix2 p q))
  refine congrArg _ (funext fun a => Fin.ext ?_)
  match a with
  | ⟨0, _⟩ => show 10000 * t.val + p.val = win0_2.index t (0 : Fin 2) * 10000 + 1 * p.val; omega
  | ⟨1, _⟩ => show q.val = win0_2.index t (1 : Fin 2) * 128 + 1 * q.val; omega

/-- An index of the output array is in point t's block iff each coordinate is in the block's range on its axis. -/
theorem mem_blk_r0 (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v0).slice (win0_2.rect t)).set ↔ _
  rw [View.set_slice_whole, Rect.mem_set_unit]
  exact Iff.rfl

/-- THE TEN BLOCKS TILE THE ROWS: row r of the output lies in the block of point r / 10000. -/
theorem cover_r0 (i : S100000x128.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  have hq : (i 0).val / 10000 < cfg0.N := by rw [hN]; omega
  obtain ⟨-, -, -, -, e0, e1⟩ := blk_index_r0 ⟨(i 0).val / 10000, hq⟩
  refine ⟨⟨(i 0).val / 10000, hq⟩, flush0_2 _, ?_⟩
  rw [mem_blk_r0]
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, hq⟩ (1 : Fin 2) * 128 ≤ (i 1).val
      ∧ (i 1).val < win0_2.index ⟨(i 0).val / 10000, hq⟩ (1 : Fin 2) * 128 + 128
    rw [e1]; omega

/-- The array region 0 leaves behind its output window, as one function of the arrays it found. -/
theorem region0 (V : (c : Dev nD) → (b : Ref sig .tc) → Buf (Elt Ideal) ((c : Thread nD τ).loc b)) (c : Dev nD) :
    (dat0 (F := Ideal) V c).arrAt 2 cfg0.N = Cert.Spec.proj0 (V c main_arg0) (V c main_arg11) :=
  (dat0 (F := Ideal) V c).arrAt_eq_of_cover 2 (Cert.Spec.proj0 (V c main_arg0) (V c main_arg11))
    (fun t _ => flushed_r0 V c t) cover_r0

end Cert.KernelIdeal.Val

end
-- ==== Proof.Region1.lean ====
/-
  Region 1: the product of the 50000 × 64 rank-3 features with their weight, five row blocks of 10000.

  At grid point t the kernel loads rows 10000·t … 10000·t + 9999 of the features and the whole 64 × 128 weight,
  multiplies the two (each first changed to a narrower float format, which is the identity on extended reals; the
  product accumulates into zero) and writes the result back as rows 10000·t … 10000·t + 9999 of the output. Row r of a
  product L·W depends on row r of L only, so the block written at t is the t-th row block of the whole product; the five
  blocks tile the 50000 rows (row r lies in block r / 10000), so after the last write-back the output is the whole product.
-/
import proofs.«115586_j31001073942736_1_alg».proof.Proof.KernelIdealFrame
import proofs.«115586_j31001073942736_1_alg».proof.Proof.Spec
import proofs.«115586_j31001073942736_1_alg».proof.Proof.LibRowSelect

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP

open Cert.RowBlock in
/-- The body's arithmetic on a row block: if x is rows 10000·t … of X and w is W entry by entry, the product the body
    forms of x and w is rows 10000·t … of the whole product X·W. -/
theorem pay_rows_r1 (X : FVec Ideal S50000x64 .f32) (W : FVec Ideal S64x128 .f32) (t : Nat)
    (x : Vec Ideal S10000x64 .f32) (w : Vec Ideal S64x128 .f32)
    (hx : IsRows 10000 t X x) (hw : ∀ (k : Fin 64) (j : Fin 128), w (ix2 k j) = W (ix2 k j)) :
    IsRows 10000 t (Cert.Spec.proj3 X W) (k1_pay1 x w) := by
  unfold k1_pay1 Cert.Spec.proj3
  exact IsRows.dot (IsRows.trunc hx _) _ _ ⟨rfl, rfl, rfl, rfl, rfl, rfl⟩ ⟨rfl, rfl, rfl, rfl, rfl, rfl⟩ W _ hw

/-- Zero offsets on both axes, however the zeros are spelt. -/
theorem zero_off_r1 : (![0, 0] : Fin 2 → Nat) = fun _ => 0 := funext fun a => by fin_cases a <;> rfl

/-- The printed index maps, decided once over the grid: at point t the feature window and the output window sit at
    block row t, block column 0; the weight window is always its one block. -/
theorem blk_index_r1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

open Cert.RowBlock in
/-- The feature window's block at point t is rows 10000·t … 10000·t + 9999 of the features. -/
theorem x_rows_r1 (V : (c : Dev nD) → (b : Ref sig .tc) → Buf (Elt Ideal) ((c : Thread nD τ).loc b)) (c : Dev nD)
    (t : Fin cfg1.N) :
    IsRows 10000 t.val (V c main_arg3 : FVec Ideal S50000x64 .f32) (iblk1 V c 0 t : Vec Ideal S10000x64 .f32) := by
  intro p j r hr
  obtain ⟨e0, e1, -, -, -, -⟩ := blk_index_r1 t
  unfold iblk1
  show V c main_arg3 (((cfg1.win 0).blk t).view.emb (ix2 p j)) = V c main_arg3 (ix2 r j)
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * j.val = j.val; omega

/-- The weight window's block at every point is the whole weight. -/
theorem w_whole_r1 (V : (c : Dev nD) → (b : Ref sig .tc) → Buf (Elt Ideal) ((c : Thread nD τ).loc b)) (c : Dev nD)
    (t : Fin cfg1.N) (k : Fin 64) (j : Fin 128) :
    (iblk1 V c 1 t : Vec Ideal S64x128 .f32) (ix2 k j) = (V c main_arg12 : FVec Ideal S64x128 .f32) (ix2 k j) := by
  obtain ⟨-, -, e0, e1, -, -⟩ := blk_index_r1 t
  unfold iblk1
  show V c main_arg12 (((cfg1.win 1).blk t).view.emb (ix2 k j)) = V c main_arg12 (ix2 k j)
  refine congrArg _ (funext fun a => Fin.ext ?_)
  match a with
  | ⟨0, _⟩ => show win1_1.index t (0 : Fin 2) * 64 + 1 * k.val = k.val; omega
  | ⟨1, _⟩ => show win1_1.index t (1 : Fin 2) * 128 + 1 * j.val = j.val; omega

open Cert.RowBlock in
/-- WHAT POINT t WRITES BACK is block t of the whole product: the body's result on the two input blocks, read at row p
    and column q of the block, is the product at row 10000·t + p and column q, which is where the output window's
    block puts that entry. -/
theorem flushed_r1 (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Spec.proj3 (V c main_arg3) (V c main_arg12)) := by
  show (cfg1.win 2).cut (grid1.coords t) ((dat1 (F := Ideal) V c).after 2 t) = _
  rw [after1_2]
  unfold out1_2
  rw [View.canon_unit_zero zero_off_r1]
  simp only [View.ld_unit_zero (S := S10000x64) zero_off_r1, View.ld_unit_zero (S := S64x128) zero_off_r1]
  have hN : cfg1.N = 5 := N_1
  have ht : t.val < 5 := hN ▸ t.isLt
  obtain ⟨-, -, -, -, e0, e1⟩ := blk_index_r1 t
  funext y
  obtain ⟨p, q, rfl⟩ : ∃ (p : Fin 10000) (q : Fin 128), y = ix2 p q := ⟨y 0, y 1, eq_ix2 y⟩
  have hr : 10000 * t.val + p.val < 50000 := by have := p.isLt; omega
  refine (pay_rows_r1 (V c main_arg3) (V c main_arg12) t.val (iblk1 V c 0 t) (iblk1 V c 1 t) (x_rows_r1 V c t)
    (w_whole_r1 V c t) p q ⟨10000 * t.val + p.val, hr⟩ rfl).trans ?_
  show Cert.Spec.proj3 (V c main_arg3) (V c main_arg12) _
    = Cert.Spec.proj3 (V c main_arg3) (V c main_arg12) (((cfg1.win 2).blk t).view.emb (ix2 p q))
  refine congrArg _ (funext fun a => Fin.ext ?_)
  match a with
  | ⟨0, _⟩ => show 10000 * t.val + p.val = win1_2.index t (0 : Fin 2) * 10000 + 1 * p.val; omega
  | ⟨1, _⟩ => show q.val = win1_2.index t (1 : Fin 2) * 128 + 1 * q.val; omega

/-- An index of the output array is in point t's block iff each coordinate is in the block's range on its axis. -/
theorem mem_blk_r1 (t : Fin cfg1.N) (i : S50000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v1).slice (win1_2.rect t)).set ↔ _
  rw [View.set_slice_whole, Rect.mem_set_unit]
  exact Iff.rfl

/-- THE FIVE BLOCKS TILE THE ROWS: row r of the output lies in the block of point r / 10000. -/
theorem cover_r1 (i : S50000x128.Idx) :
    ∃ t : Fin cfg1.N, (cfg1.win 2).flush t = true ∧ i ∈ ((cfg1.win 2).blk t).view.set := by
  have hN : cfg1.N = 5 := N_1
  have hi0 : (i 0).val < 50000 := (i 0).isLt
  have hi1 : (i 1).val < 128 := (i 1).isLt
  have hq : (i 0).val / 10000 < cfg1.N := by rw [hN]; omega
  obtain ⟨-, -, -, -, e0, e1⟩ := blk_index_r1 ⟨(i 0).val / 10000, hq⟩
  refine ⟨⟨(i 0).val / 10000, hq⟩, flush1_2 _, ?_⟩
  rw [mem_blk_r1]
  intro a
  match a with
  | ⟨0, _⟩ =>
    show win1_2.index ⟨(i 0).val / 10000, hq⟩ (0 : Fin 2) * 10000 ≤ (i 0).val
      ∧ (i 0).val < win1_2.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win1_2.index ⟨(i 0).val / 10000, hq⟩ (1 : Fin 2) * 128 ≤ (i 1).val
      ∧ (i 1).val < win1_2.index ⟨(i 0).val / 10000, hq⟩ (1 : Fin 2) * 128 + 128
    rw [e1]; omega

/-- The array region 1 leaves behind its output window, as one function of the arrays it found. -/
theorem region1 (V : (c : Dev nD) → (b : Ref sig .tc) → Buf (Elt Ideal) ((c : Thread nD τ).loc b)) (c : Dev nD) :
    (dat1 (F := Ideal) V c).arrAt 2 cfg1.N = Cert.Spec.proj3 (V c main_arg3) (V c main_arg12) :=
  (dat1 (F := Ideal) V c).arrAt_eq_of_cover 2 (Cert.Spec.proj3 (V c main_arg3) (V c main_arg12))
    (fun t _ => flushed_r1 V c t) cover_r1

end Cert.KernelIdeal.Val

end
-- ==== Proof.Region2.lean ====
/-
  Region 2: the product of the 300000 × 64 rank-1 features with their weight, thirty row blocks of 10000.

  At grid point t the kernel loads rows 10000·t … 10000·t + 9999 of the features and the whole 64 × 128 weight,
  multiplies the two (each first changed to a narrower float format, which is the identity on extended reals; the
  product accumulates into zero) and writes the result back as rows 10000·t … 10000·t + 9999 of the output. Row r of a
  product L·W depends on row r of L only, so the block written at t is the t-th row block of the whole product; the thirty
  blocks tile the 300000 rows (row r lies in block r / 10000), so after the last write-back the output is the whole product.
-/
import proofs.«115586_j31001073942736_1_alg».proof.Proof.KernelIdealFrame
import proofs.«115586_j31001073942736_1_alg».proof.Proof.Spec
import proofs.«115586_j31001073942736_1_alg».proof.Proof.LibRowSelect

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP

open Cert.RowBlock in
/-- The body's arithmetic on a row block: if x is rows 10000·t … of X and w is W entry by entry, the product the body
    forms of x and w is rows 10000·t … of the whole product X·W. -/
theorem pay_rows_r2 (X : FVec Ideal S300000x64 .f32) (W : FVec Ideal S64x128 .f32) (t : Nat)
    (x : Vec Ideal S10000x64 .f32) (w : Vec Ideal S64x128 .f32)
    (hx : IsRows 10000 t X x) (hw : ∀ (k : Fin 64) (j : Fin 128), w (ix2 k j) = W (ix2 k j)) :
    IsRows 10000 t (Cert.Spec.proj1 X W) (k2_pay1 x w) := by
  unfold k2_pay1 Cert.Spec.proj1
  exact IsRows.dot (IsRows.trunc hx _) _ _ ⟨rfl, rfl, rfl, rfl, rfl, rfl⟩ ⟨rfl, rfl, rfl, rfl, rfl, rfl⟩ W _ hw

/-- Zero offsets on both axes, however the zeros are spelt. -/
theorem zero_off_r2 : (![0, 0] : Fin 2 → Nat) = fun _ => 0 := funext fun a => by fin_cases a <;> rfl

/-- The printed index maps, decided once over the grid: at point t the feature window and the output window sit at
    block row t, block column 0; the weight window is always its one block. -/
theorem blk_index_r2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

open Cert.RowBlock in
/-- The feature window's block at point t is rows 10000·t … 10000·t + 9999 of the features. -/
theorem x_rows_r2 (V : (c : Dev nD) → (b : Ref sig .tc) → Buf (Elt Ideal) ((c : Thread nD τ).loc b)) (c : Dev nD)
    (t : Fin cfg2.N) :
    IsRows 10000 t.val (V c main_arg1 : FVec Ideal S300000x64 .f32) (iblk2 V c 0 t : Vec Ideal S10000x64 .f32) := by
  intro p j r hr
  obtain ⟨e0, e1, -, -, -, -⟩ := blk_index_r2 t
  unfold iblk2
  show V c main_arg1 (((cfg2.win 0).blk t).view.emb (ix2 p j)) = V c main_arg1 (ix2 r j)
  refine congrArg _ (funext fun a => Fin.ext ?_)
  match a with
  | ⟨0, _⟩ => show win2_0.index t (0 : Fin 2) * 10000 + 1 * p.val = r.val; omega
  | ⟨1, _⟩ => show win2_0.index t (1 : Fin 2) * 64 + 1 * j.val = j.val; omega

/-- The weight window's block at every point is the whole weight. -/
theorem w_whole_r2 (V : (c : Dev nD) → (b : Ref sig .tc) → Buf (Elt Ideal) ((c : Thread nD τ).loc b)) (c : Dev nD)
    (t : Fin cfg2.N) (k : Fin 64) (j : Fin 128) :
    (iblk2 V c 1 t : Vec Ideal S64x128 .f32) (ix2 k j) = (V c main_arg13 : FVec Ideal S64x128 .f32) (ix2 k j) := by
  obtain ⟨-, -, e0, e1, -, -⟩ := blk_index_r2 t
  unfold iblk2
  show V c main_arg13 (((cfg2.win 1).blk t).view.emb (ix2 k j)) = V c main_arg13 (ix2 k j)
  refine congrArg _ (funext fun a => Fin.ext ?_)
  match a with
  | ⟨0, _⟩ => show win2_1.index t (0 : Fin 2) * 64 + 1 * k.val = k.val; omega
  | ⟨1, _⟩ => show win2_1.index t (1 : Fin 2) * 128 + 1 * j.val = j.val; omega

open Cert.RowBlock in
/-- WHAT POINT t WRITES BACK is block t of the whole product: the body's result on the two input blocks, read at row p
    and column q of the block, is the product at row 10000·t + p and column q, which is where the output window's
    block puts that entry. -/
theorem flushed_r2 (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Spec.proj1 (V c main_arg1) (V c main_arg13)) := by
  show (cfg2.win 2).cut (grid2.coords t) ((dat2 (F := Ideal) V c).after 2 t) = _
  rw [after2_2]
  unfold out2_2
  rw [View.canon_unit_zero zero_off_r2]
  simp only [View.ld_unit_zero (S := S10000x64) zero_off_r2, View.ld_unit_zero (S := S64x128) zero_off_r2]
  have hN : cfg2.N = 30 := N_2
  have ht : t.val < 30 := hN ▸ t.isLt
  obtain ⟨-, -, -, -, e0, e1⟩ := blk_index_r2 t
  funext y
  obtain ⟨p, q, rfl⟩ : ∃ (p : Fin 10000) (q : Fin 128), y = ix2 p q := ⟨y 0, y 1, eq_ix2 y⟩
  have hr : 10000 * t.val + p.val < 300000 := by have := p.isLt; omega
  refine (pay_rows_r2 (V c main_arg1) (V c main_arg13) t.val (iblk2 V c 0 t) (iblk2 V c 1 t) (x_rows_r2 V c t)
    (w_whole_r2 V c t) p q ⟨10000 * t.val + p.val, hr⟩ rfl).trans ?_
  show Cert.Spec.proj1 (V c main_arg1) (V c main_arg13) _
    = Cert.Spec.proj1 (V c main_arg1) (V c main_arg13) (((cfg2.win 2).blk t).view.emb (ix2 p q))
  refine congrArg _ (funext fun a => Fin.ext ?_)
  match a with
  | ⟨0, _⟩ => show 10000 * t.val + p.val = win2_2.index t (0 : Fin 2) * 10000 + 1 * p.val; omega
  | ⟨1, _⟩ => show q.val = win2_2.index t (1 : Fin 2) * 128 + 1 * q.val; omega

/-- An index of the output array is in point t's block iff each coordinate is in the block's range on its axis. -/
theorem mem_blk_r2 (t : Fin cfg2.N) (i : S300000x128.Idx) :
    i ∈ ((cfg2.win 2).blk t).view.set
      ↔ ∀ a : Fin 2, win2_2.index t a * S10000x128.size a ≤ (i a).val
          ∧ (i a).val < win2_2.index t a * S10000x128.size a + S10000x128.size a := by
  show i ∈ ((View.whole main_v2).slice (win2_2.rect t)).set ↔ _
  rw [View.set_slice_whole, Rect.mem_set_unit]
  exact Iff.rfl

/-- THE THIRTY BLOCKS TILE THE ROWS: row r of the output lies in the block of point r / 10000. -/
theorem cover_r2 (i : S300000x128.Idx) :
    ∃ t : Fin cfg2.N, (cfg2.win 2).flush t = true ∧ i ∈ ((cfg2.win 2).blk t).view.set := by
  have hN : cfg2.N = 30 := N_2
  have hi0 : (i 0).val < 300000 := (i 0).isLt
  have hi1 : (i 1).val < 128 := (i 1).isLt
  have hq : (i 0).val / 10000 < cfg2.N := by rw [hN]; omega
  obtain ⟨-, -, -, -, e0, e1⟩ := blk_index_r2 ⟨(i 0).val / 10000, hq⟩
  refine ⟨⟨(i 0).val / 10000, hq⟩, flush2_2 _, ?_⟩
  rw [mem_blk_r2]
  intro a
  match a with
  | ⟨0, _⟩ =>
    show win2_2.index ⟨(i 0).val / 10000, hq⟩ (0 : Fin 2) * 10000 ≤ (i 0).val
      ∧ (i 0).val < win2_2.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win2_2.index ⟨(i 0).val / 10000, hq⟩ (1 : Fin 2) * 128 ≤ (i 1).val
      ∧ (i 1).val < win2_2.index ⟨(i 0).val / 10000, hq⟩ (1 : Fin 2) * 128 + 128
    rw [e1]; omega

/-- The array region 2 leaves behind its output window, as one function of the arrays it found. -/
theorem region2 (V : (c : Dev nD) → (b : Ref sig .tc) → Buf (Elt Ideal) ((c : Thread nD τ).loc b)) (c : Dev nD) :
    (dat2 (F := Ideal) V c).arrAt 2 cfg2.N = Cert.Spec.proj1 (V c main_arg1) (V c main_arg13) :=
  (dat2 (F := Ideal) V c).arrAt_eq_of_cover 2 (Cert.Spec.proj1 (V c main_arg1) (V c main_arg13))
    (fun t _ => flushed_r2 V c t) cover_r2

end Cert.KernelIdeal.Val

end
-- ==== Proof.Region3.lean ====
/-
  Region 3: the product of the 150000 × 64 rank-2 features with their weight, fifteen row blocks of 10000.

  At grid point t the kernel loads rows 10000·t … 10000·t + 9999 of the features and the whole 64 × 128 weight,
  multiplies the two (each first changed to a narrower float format, which is the identity on extended reals; the
  product accumulates into zero) and writes the result back as rows 10000·t … 10000·t + 9999 of the output. Row r of a
  product L·W depends on row r of L only, so the block written at t is the t-th row block of the whole product; the fifteen
  blocks tile the 150000 rows (row r lies in block r / 10000), so after the last write-back the output is the whole product.
-/
import proofs.«115586_j31001073942736_1_alg».proof.Proof.KernelIdealFrame
import proofs.«115586_j31001073942736_1_alg».proof.Proof.Spec
import proofs.«115586_j31001073942736_1_alg».proof.Proof.LibRowSelect

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP

open Cert.RowBlock in
/-- The body's arithmetic on a row block: if x is rows 10000·t … of X and w is W entry by entry, the product the body
    forms of x and w is rows 10000·t … of the whole product X·W. -/
theorem pay_rows_r3 (X : FVec Ideal S150000x64 .f32) (W : FVec Ideal S64x128 .f32) (t : Nat)
    (x : Vec Ideal S10000x64 .f32) (w : Vec Ideal S64x128 .f32)
    (hx : IsRows 10000 t X x) (hw : ∀ (k : Fin 64) (j : Fin 128), w (ix2 k j) = W (ix2 k j)) :
    IsRows 10000 t (Cert.Spec.proj2 X W) (k3_pay1 x w) := by
  unfold k3_pay1 Cert.Spec.proj2
  exact IsRows.dot (IsRows.trunc hx _) _ _ ⟨rfl, rfl, rfl, rfl, rfl, rfl⟩ ⟨rfl, rfl, rfl, rfl, rfl, rfl⟩ W _ hw

/-- Zero offsets on both axes, however the zeros are spelt. -/
theorem zero_off_r3 : (![0, 0] : Fin 2 → Nat) = fun _ => 0 := funext fun a => by fin_cases a <;> rfl

/-- The printed index maps, decided once over the grid: at point t the feature window and the output window sit at
    block row t, block column 0; the weight window is always its one block. -/
theorem blk_index_r3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

open Cert.RowBlock in
/-- The feature window's block at point t is rows 10000·t … 10000·t + 9999 of the features. -/
theorem x_rows_r3 (V : (c : Dev nD) → (b : Ref sig .tc) → Buf (Elt Ideal) ((c : Thread nD τ).loc b)) (c : Dev nD)
    (t : Fin cfg3.N) :
    IsRows 10000 t.val (V c main_arg2 : FVec Ideal S150000x64 .f32) (iblk3 V c 0 t : Vec Ideal S10000x64 .f32) := by
  intro p j r hr
  obtain ⟨e0, e1, -, -, -, -⟩ := blk_index_r3 t
  unfold iblk3
  show V c main_arg2 (((cfg3.win 0).blk t).view.emb (ix2 p j)) = V c main_arg2 (ix2 r j)
  refine congrArg _ (funext fun a => Fin.ext ?_)
  match a with
  | ⟨0, _⟩ => show win3_0.index t (0 : Fin 2) * 10000 + 1 * p.val = r.val; omega
  | ⟨1, _⟩ => show win3_0.index t (1 : Fin 2) * 64 + 1 * j.val = j.val; omega

/-- The weight window's block at every point is the whole weight. -/
theorem w_whole_r3 (V : (c : Dev nD) → (b : Ref sig .tc) → Buf (Elt Ideal) ((c : Thread nD τ).loc b)) (c : Dev nD)
    (t : Fin cfg3.N) (k : Fin 64) (j : Fin 128) :
    (iblk3 V c 1 t : Vec Ideal S64x128 .f32) (ix2 k j) = (V c main_arg14 : FVec Ideal S64x128 .f32) (ix2 k j) := by
  obtain ⟨-, -, e0, e1, -, -⟩ := blk_index_r3 t
  unfold iblk3
  show V c main_arg14 (((cfg3.win 1).blk t).view.emb (ix2 k j)) = V c main_arg14 (ix2 k j)
  refine congrArg _ (funext fun a => Fin.ext ?_)
  match a with
  | ⟨0, _⟩ => show win3_1.index t (0 : Fin 2) * 64 + 1 * k.val = k.val; omega
  | ⟨1, _⟩ => show win3_1.index t (1 : Fin 2) * 128 + 1 * j.val = j.val; omega

open Cert.RowBlock in
/-- WHAT POINT t WRITES BACK is block t of the whole product: the body's result on the two input blocks, read at row p
    and column q of the block, is the product at row 10000·t + p and column q, which is where the output window's
    block puts that entry. -/
theorem flushed_r3 (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (Cert.Spec.proj2 (V c main_arg2) (V c main_arg14)) := by
  show (cfg3.win 2).cut (grid3.coords t) ((dat3 (F := Ideal) V c).after 2 t) = _
  rw [after3_2]
  unfold out3_2
  rw [View.canon_unit_zero zero_off_r3]
  simp only [View.ld_unit_zero (S := S10000x64) zero_off_r3, View.ld_unit_zero (S := S64x128) zero_off_r3]
  have hN : cfg3.N = 15 := N_3
  have ht : t.val < 15 := hN ▸ t.isLt
  obtain ⟨-, -, -, -, e0, e1⟩ := blk_index_r3 t
  funext y
  obtain ⟨p, q, rfl⟩ : ∃ (p : Fin 10000) (q : Fin 128), y = ix2 p q := ⟨y 0, y 1, eq_ix2 y⟩
  have hr : 10000 * t.val + p.val < 150000 := by have := p.isLt; omega
  refine (pay_rows_r3 (V c main_arg2) (V c main_arg14) t.val (iblk3 V c 0 t) (iblk3 V c 1 t) (x_rows_r3 V c t)
    (w_whole_r3 V c t) p q ⟨10000 * t.val + p.val, hr⟩ rfl).trans ?_
  show Cert.Spec.proj2 (V c main_arg2) (V c main_arg14) _
    = Cert.Spec.proj2 (V c main_arg2) (V c main_arg14) (((cfg3.win 2).blk t).view.emb (ix2 p q))
  refine congrArg _ (funext fun a => Fin.ext ?_)
  match a with
  | ⟨0, _⟩ => show 10000 * t.val + p.val = win3_2.index t (0 : Fin 2) * 10000 + 1 * p.val; omega
  | ⟨1, _⟩ => show q.val = win3_2.index t (1 : Fin 2) * 128 + 1 * q.val; omega

/-- An index of the output array is in point t's block iff each coordinate is in the block's range on its axis. -/
theorem mem_blk_r3 (t : Fin cfg3.N) (i : S150000x128.Idx) :
    i ∈ ((cfg3.win 2).blk t).view.set
      ↔ ∀ a : Fin 2, win3_2.index t a * S10000x128.size a ≤ (i a).val
          ∧ (i a).val < win3_2.index t a * S10000x128.size a + S10000x128.size a := by
  show i ∈ ((View.whole main_v3).slice (win3_2.rect t)).set ↔ _
  rw [View.set_slice_whole, Rect.mem_set_unit]
  exact Iff.rfl

/-- THE FIFTEEN BLOCKS TILE THE ROWS: row r of the output lies in the block of point r / 10000. -/
theorem cover_r3 (i : S150000x128.Idx) :
    ∃ t : Fin cfg3.N, (cfg3.win 2).flush t = true ∧ i ∈ ((cfg3.win 2).blk t).view.set := by
  have hN : cfg3.N = 15 := N_3
  have hi0 : (i 0).val < 150000 := (i 0).isLt
  have hi1 : (i 1).val < 128 := (i 1).isLt
  have hq : (i 0).val / 10000 < cfg3.N := by rw [hN]; omega
  obtain ⟨-, -, -, -, e0, e1⟩ := blk_index_r3 ⟨(i 0).val / 10000, hq⟩
  refine ⟨⟨(i 0).val / 10000, hq⟩, flush3_2 _, ?_⟩
  rw [mem_blk_r3]
  intro a
  match a with
  | ⟨0, _⟩ =>
    show win3_2.index ⟨(i 0).val / 10000, hq⟩ (0 : Fin 2) * 10000 ≤ (i 0).val
      ∧ (i 0).val < win3_2.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win3_2.index ⟨(i 0).val / 10000, hq⟩ (1 : Fin 2) * 128 ≤ (i 1).val
      ∧ (i 1).val < win3_2.index ⟨(i 0).val / 10000, hq⟩ (1 : Fin 2) * 128 + 128
    rw [e1]; omega

/-- The array region 3 leaves behind its output window, as one function of the arrays it found. -/
theorem region3 (V : (c : Dev nD) → (b : Ref sig .tc) → Buf (Elt Ideal) ((c : Thread nD τ).loc b)) (c : Dev nD) :
    (dat3 (F := Ideal) V c).arrAt 2 cfg3.N = Cert.Spec.proj2 (V c main_arg2) (V c main_arg14) :=
  (dat3 (F := Ideal) V c).arrAt_eq_of_cover 2 (Cert.Spec.proj2 (V c main_arg2) (V c main_arg14))
    (fun t _ => flushed_r3 V c t) cover_r3

end Cert.KernelIdeal.Val

end
-- ==== Proof.LibRowAffine.lean ====
/-
  Row blocks under an affine map of a sum followed by the leaky rectifier, at the exact instance.

  If `l` and `l'` are the `t`-th row blocks of `L` and `L'` (rows `B·t, …, B·t + B − 1`), then
  `(l + l') · R + bias` computed on the block, with the bias row laid over the block's rows, is the `t`-th row
  block of `(L + L') · R + bias` computed on the whole matrices: a sum is entrywise, row `r` of a product
  needs row `r` of its left operand only, and the bias row is the same in every row. Changes of float format are
  the identity on extended reals and a shape cast to the same shape changes nothing, so the block side may carry
  both. The leaky rectifier `y ↦ y` where `y ≥ z`, `c·y` elsewhere is entrywise, so it keeps row blocks too.
-/
import proofs.«115586_j31001073942736_1_alg».proof.Proof.LibRowSelect

noncomputable section

namespace Cert.RowBlock

open Idealize.ShloMosaic Idealize.ShloMosaic.ValueIdx

namespace IsRows

variable {N n B t : Nat}

/-- A shape cast to the same shape is the identity, so the cast of a row block is still that row block. -/
theorem cast_self {α : Type} {A : (⟨2, ![N, n]⟩ : Shape).Idx → α} {a : (⟨2, ![B, n]⟩ : Shape).Idx → α} (H : IsRows B t A a)
    (h : (⟨2, ![B, n]⟩ : Shape).ShapeCasts ⟨2, ![B, n]⟩) : IsRows B t A (shapeCast ⟨2, ![B, n]⟩ a h) := by
  rw [shapeCast_self]
  exact H

/-- One `1 × n` row laid over all `N` rows of the whole matrix, against the same row (`x` and `X` agree entry by
    entry) cast to its own shape and laid over the `B` rows of a block: every row of either is that one row. -/
theorem bias_row {α : Type} (X x : (⟨2, ![1, n]⟩ : Shape).Idx → α) (hx : ∀ j : Fin n, x (ix2 (0 : Fin 1) j) = X (ix2 (0 : Fin 1) j))
    (h2 : (⟨2, ![1, n]⟩ : Shape).BroadcastsInDim ⟨2, ![N, n]⟩ ![0, 1])
    (hc : (⟨2, ![1, n]⟩ : Shape).ShapeCasts ⟨2, ![1, n]⟩) (hb : (⟨2, ![1, n]⟩ : Shape).Broadcasts ⟨2, ![B, n]⟩) :
    IsRows B t (broadcastInDim ⟨2, ![N, n]⟩ ![0, 1] h2 X) (broadcastTo ⟨2, ![B, n]⟩ (shapeCast ⟨2, ![1, n]⟩ x hc) hb) := by
  intro p j r _
  rw [broadcastTo_1b_ab_apply, shapeCast_self, hx j]
  refine Eq.symm (broadcastInDim_apply ![0, 1] h2 X (ix2 r j) (ix2 (0 : Fin 1) j) fun a => ?_)
  match a with
  | ⟨0, _⟩ => rfl
  | ⟨1, _⟩ =>
    show j.val = if n = 1 then 0 else j.val
    split
    · have := j.isLt; omega
    · rfl

/-- THE AFFINE MAP OF A SUM, block against whole: `(L + L')·R + bias` on the host, and on row blocks `l`, `l'` of `L`,
    `L'` the product of `l + l'` with the same matrix (`r` and `R` agree entry by entry) into a zero accumulator plus
    the same bias row; on the block side each operand passes a shape cast to its own shape and a change of float
    format, neither of which changes a value. -/
theorem affine_of_sum {K M : Nat} {L L' : FVec Ideal ⟨2, ![N, K]⟩ .f32} {l l' : FVec Ideal ⟨2, ![B, K]⟩ .f32}
    (H : IsRows B t L l) (H' : IsRows B t L' l')
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R r : FVec Ideal ⟨2, ![K, M]⟩ .f32) (hR : ∀ k j, r (ix2 k j) = R (ix2 k j))
    (X x : FVec Ideal ⟨2, ![1, M]⟩ .f32) (hx : ∀ j : Fin M, x (ix2 (0 : Fin 1) j) = X (ix2 (0 : Fin 1) j))
    (h2 : (⟨2, ![1, M]⟩ : Shape).BroadcastsInDim ⟨2, ![N, M]⟩ ![0, 1])
    (hc : (⟨2, ![1, M]⟩ : Shape).ShapeCasts ⟨2, ![1, M]⟩) (hb : (⟨2, ![1, M]⟩ : Shape).Broadcasts ⟨2, ![B, M]⟩)
    (hl : (⟨2, ![B, K]⟩ : Shape).ShapeCasts ⟨2, ![B, K]⟩) (hr : (⟨2, ![K, M]⟩ : Shape).ShapeCasts ⟨2, ![K, M]⟩)
    (hlt : FTy.bits .bf16 < FTy.bits .f32) :
    IsRows B t (addf (Host.dotGeneral D none (addf L L') R) (broadcastInDim ⟨2, ![N, M]⟩ ![0, 1] h2 X))
      (addf (matmul d none (truncf .bf16 (addf (shapeCast ⟨2, ![B, K]⟩ l hl) (shapeCast ⟨2, ![B, K]⟩ l' hl)) hlt)
          (truncf .bf16 (shapeCast ⟨2, ![K, M]⟩ r hr) hlt) (constant ⟨2, ![B, M]⟩ .f32 0x00000000#32))
        (broadcastTo ⟨2, ![B, M]⟩ (shapeCast ⟨2, ![1, M]⟩ x hc) hb)) :=
  add (dot (trunc (add (cast_self H hl) (cast_self H' hl)) hlt) D d hD hd R _
      (fun k j => (congrFun (shapeCast_self r hr) (ix2 k j)).trans (hR k j)))
    (bias_row X x hx h2 hc hb)

/-- THE LEAKY RECTIFIER, block against whole: `select (y ≥ z) y (c·y)` of a row block `y` of `Y` is the row block of
    `select (Y ≥ z) Y (c·Y)`, `z` and `c` the same words on both sides. -/
theorem leaky {Y : FVec Ideal ⟨2, ![N, n]⟩ .f32} {y : FVec Ideal ⟨2, ![B, n]⟩ .f32} (HY : IsRows B t Y y)
    (hb : (⟨0, ![]⟩ : Shape).BroadcastsInDim ⟨2, ![N, n]⟩ ![]) (z c : BitVec 32) :
    IsRows B t
      (select (cmpf .oge Y (broadcastInDim ⟨2, ![N, n]⟩ ![] hb (constant (F := Ideal) ⟨0, ![]⟩ .f32 z))) Y
        (mulf (broadcastInDim ⟨2, ![N, n]⟩ ![] hb (id (constant (F := Ideal) ⟨0, ![]⟩ .f32 c))) Y))
      (select (cmpf .oge y (broadcast ⟨2, ![B, n]⟩ (Scalar.ofBits (F := Ideal) .f32 z))) y
        (mulf (broadcast ⟨2, ![B, n]⟩ (Scalar.ofBits (F := Ideal) .f32 c)) y)) :=
  sel (cmp HY (splat .f32 z hb) .oge) HY (mul (splat_id .f32 c hb) HY)

end IsRows

end Cert.RowBlock

end
-- ==== Proof.Region4.lean ====
/-
  Region 4: the rank-0 output, twenty row blocks of 5000.

  Point `t` of the grid reads rows `5000·t … 5000·t + 4999` of the two summands `a` and `b`, the whole 128 × 128
  weight and the whole bias row, and writes the same rows of the output: `leaky((a_blk + b_blk) · W + bias)`. Every
  step treats rows independently (a sum and the rectifier are entrywise, row `r` of a product needs row `r` of the
  left operand only, the bias row is the same in every row), so what a point writes is its row block of the layer's
  function of the whole arrays; the twenty blocks tile the 100000 rows, so the array ends holding that function.
-/
import proofs.«115586_j31001073942736_1_alg».proof.Proof.KernelIdealFrame
import proofs.«115586_j31001073942736_1_alg».proof.Proof.Spec
import proofs.«115586_j31001073942736_1_alg».proof.Proof.LibRowSelect
import proofs.«115586_j31001073942736_1_alg».proof.Proof.LibRowAffine

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP
open Cert.RowBlock

/-- The zero offsets of a whole-buffer access, as a constant function. -/
theorem hz4 : (![0, 0] : Fin 2 → Nat) = fun _ => 0 := funext fun a => by fin_cases a <;> rfl

/-- The block indices of the five windows at each of the twenty points: the two summands and the output move down one
    row block per point, the weight and the bias row stay at their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The body's arithmetic on row blocks of the two summands, the whole weight and the bias row is the row block of the
    layer's function of the whole arrays. -/
theorem pay_rows4 (t : Nat) (A A' : FVec Ideal S100000x128 .f32) (W : FVec Ideal S128x128 .f32) (bb : FVec Ideal S1x128 .f32)
    (a a' : Vec Ideal S5000x128 .f32) (w : Vec Ideal S128x128 .f32) (b : Vec Ideal S1x128 .f32)
    (Ha : IsRows 5000 t A a) (Ha' : IsRows 5000 t A' a') (hw : ∀ k j, w (ix2 k j) = W (ix2 k j))
    (hb : ∀ j : Fin 128, b (ix2 (0 : Fin 1) j) = bb (ix2 (0 : Fin 1) j)) :
    IsRows 5000 t (Cert.Spec.fc0 A A' W bb) (k4_pay1 (F := Ideal) a a' w b) := by
  unfold Cert.Spec.fc0 Cert.Spec.leaky0 Cert.Spec.lin0 k4_pay1
  exact IsRows.leaky (IsRows.affine_of_sum Ha Ha' _ _ ⟨rfl, rfl, rfl, rfl, rfl, rfl⟩ ⟨rfl, rfl, rfl, rfl, rfl, rfl⟩ W w hw bb b hb _ _ _ _ _ _) _ _ _

section Blocks

variable (V : (c : Dev nD) → (b : Ref sig .tc) → Buf (Elt Ideal) ((c : Thread nD τ).loc b)) (c : Dev nD) (t : Fin cfg4.N)

/-- The first summand's block at point `t` is rows `5000·t …` of its array. -/
theorem blk0_rows4 : IsRows 5000 t.val (V c main_v17) (iblk4 V c 0 t) := by
  intro p j r hr
  obtain ⟨e0, e1, -⟩ := idx_facts4 t
  show V c main_v17 (((cfg4.win 0).blk t).view.emb (ix2 p j)) = V c main_v17 (ix2 r j)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * j.val = j.val; omega

/-- The second summand's block at point `t` is rows `5000·t …` of its array. -/
theorem blk1_rows4 : IsRows 5000 t.val (V c main_v41) (iblk4 V c 1 t) := by
  intro p j r hr
  obtain ⟨-, -, e2, e3, -⟩ := idx_facts4 t
  show V c main_v41 (((cfg4.win 1).blk t).view.emb (ix2 p j)) = V c main_v41 (ix2 r j)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * j.val = j.val; omega

/-- The weight's block at every point is the whole weight. -/
theorem blk2_eq4 (k j : Fin 128) : iblk4 V c 2 t (ix2 k j) = V c main_v52 (ix2 k j) := by
  obtain ⟨-, -, -, -, e4, e5, -⟩ := idx_facts4 t
  show V c main_v52 (((cfg4.win 2).blk t).view.emb (ix2 k j)) = V c main_v52 (ix2 k j)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * j.val = j.val; omega

/-- The bias row's block at every point is the whole row. -/
theorem blk3_eq4 (j : Fin 128) : iblk4 V c 3 t (ix2 (0 : Fin 1) j) = V c main_v53 (ix2 (0 : Fin 1) j) := by
  obtain ⟨-, -, -, -, -, -, e6, e7, -⟩ := idx_facts4 t
  show V c main_v53 (((cfg4.win 3).blk t).view.emb (ix2 (0 : Fin 1) j)) = V c main_v53 (ix2 (0 : Fin 1) j)
  refine congrArg _ (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 128 + 1 * j.val = j.val; omega

/-- WHAT POINT `t` WRITES BACK is block `t` of the layer's function of the four arrays as the region finds them. -/
theorem flushed_eq4 : (dat4 (F := Ideal) V c).flushed 4 t
    = ((cfg4.win 4).blk t).view.read (Elt Ideal) (Cert.Spec.fc0 (V c main_v17) (V c main_v41) (V c main_v52) (V c main_v53)) := by
  show (cfg4.win 4).cut (grid4.coords t) ((dat4 (F := Ideal) V c).after 4 t) = _
  rw [after4_4]
  unfold out4_4
  rw [View.canon_unit_zero hz4]
  simp only [View.ld_unit_zero (S := S5000x128) hz4, View.ld_unit_zero (S := S128x128) hz4, View.ld_unit_zero (S := S1x128) hz4]
  funext y
  obtain ⟨p, q, rfl⟩ : ∃ (p : Fin 5000) (q : Fin 128), y = ix2 p q := ⟨y 0, y 1, eq_ix2 y⟩
  obtain ⟨-, -, -, -, -, -, -, -, e8, e9⟩ := idx_facts4 t
  have hN : cfg4.N = 20 := N_4
  have hr : 5000 * t.val + p.val < 100000 := by have := t.isLt; have := p.isLt; omega
  refine (pay_rows4 t.val _ _ _ _ _ _ _ _ (blk0_rows4 V c t) (blk1_rows4 V c t) (blk2_eq4 V c t) (blk3_eq4 V c t) p q
    ⟨5000 * t.val + p.val, hr⟩ rfl).trans ?_
  show Cert.Spec.fc0 (V c main_v17) (V c main_v41) (V c main_v52) (V c main_v53) (ix2 ⟨5000 * t.val + p.val, hr⟩ q)
    = Cert.Spec.fc0 (V c main_v17) (V c main_v41) (V c main_v52) (V c main_v53) (((cfg4.win 4).blk t).view.emb (ix2 p q))
  refine congrArg _ (funext fun a => Fin.ext ?_)
  match a with
  | ⟨0, _⟩ => show 5000 * t.val + p.val = win4_4.index t (0 : Fin 2) * 5000 + 1 * p.val; omega
  | ⟨1, _⟩ => show q.val = win4_4.index t (1 : Fin 2) * 128 + 1 * q.val; omega

end Blocks

/-- An index of the output array is in point `t`'s block iff each coordinate is in the block's range on its axis. -/
theorem mem_blk4 (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v54).slice (win4_4.rect t)).set ↔ _
  rw [View.set_slice_whole, Rect.mem_set_unit]
  exact Iff.rfl

/-- Every index of the output array lies in the block of the point its row, divided by 5000, names. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, -, -, -, -, e8, e9⟩ := idx_facts4 t
  refine ⟨t, flush4_4 t, ?_⟩
  rw [mem_blk4]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- The array region 4 leaves behind its output window, as one function of the arrays it found. -/
theorem region4 (V : (c : Dev nD) → (b : Ref sig .tc) → Buf (Elt Ideal) ((c : Thread nD τ).loc b)) (c : Dev nD) :
    (dat4 (F := Ideal) V c).arrAt 4 cfg4.N = Cert.Spec.fc0 (V c main_v17) (V c main_v41) (V c main_v52) (V c main_v53) := by
  exact (dat4 (F := Ideal) V c).arrAt_eq_of_cover 4 (Cert.Spec.fc0 (V c main_v17) (V c main_v41) (V c main_v52) (V c main_v53))
    (fun t _ => flushed_eq4 V c t) cover4

end Cert.KernelIdeal.Val

end
-- ==== Proof.Region5.lean ====
/-
  Region 5: the rank-3 output, ten row blocks of 5000.

  Point `t` of the grid reads rows `5000·t … 5000·t + 4999` of the two summands `a` and `b`, the whole 128 × 128
  weight and the whole bias row, and writes the same rows of the output: `leaky((a_blk + b_blk) · W + bias)`. Every
  step treats rows independently (a sum and the rectifier are entrywise, row `r` of a product needs row `r` of the
  left operand only, the bias row is the same in every row), so what a point writes is its row block of the layer's
  function of the whole arrays; the ten blocks tile the 50000 rows, so the array ends holding that function.
-/
import proofs.«115586_j31001073942736_1_alg».proof.Proof.KernelIdealFrame
import proofs.«115586_j31001073942736_1_alg».proof.Proof.Spec
import proofs.«115586_j31001073942736_1_alg».proof.Proof.LibRowSelect
import proofs.«115586_j31001073942736_1_alg».proof.Proof.LibRowAffine

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP
open Cert.RowBlock

/-- The zero offsets of a whole-buffer access, as a constant function. -/
theorem hz5 : (![0, 0] : Fin 2 → Nat) = fun _ => 0 := funext fun a => by fin_cases a <;> rfl

/-- The block indices of the five windows at each of the ten points: the two summands and the output move down one
    row block per point, the weight and the bias row stay at their one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's arithmetic on row blocks of the two summands, the whole weight and the bias row is the row block of the
    layer's function of the whole arrays. -/
theorem pay_rows5 (t : Nat) (A A' : FVec Ideal S50000x128 .f32) (W : FVec Ideal S128x128 .f32) (bb : FVec Ideal S1x128 .f32)
    (a a' : Vec Ideal S5000x128 .f32) (w : Vec Ideal S128x128 .f32) (b : Vec Ideal S1x128 .f32)
    (Ha : IsRows 5000 t A a) (Ha' : IsRows 5000 t A' a') (hw : ∀ k j, w (ix2 k j) = W (ix2 k j))
    (hb : ∀ j : Fin 128, b (ix2 (0 : Fin 1) j) = bb (ix2 (0 : Fin 1) j)) :
    IsRows 5000 t (Cert.Spec.fc3 A A' W bb) (k5_pay1 (F := Ideal) a a' w b) := by
  unfold Cert.Spec.fc3 Cert.Spec.leaky3 Cert.Spec.lin3 k5_pay1
  exact IsRows.leaky (IsRows.affine_of_sum Ha Ha' _ _ ⟨rfl, rfl, rfl, rfl, rfl, rfl⟩ ⟨rfl, rfl, rfl, rfl, rfl, rfl⟩ W w hw bb b hb _ _ _ _ _ _) _ _ _

section Blocks

variable (V : (c : Dev nD) → (b : Ref sig .tc) → Buf (Elt Ideal) ((c : Thread nD τ).loc b)) (c : Dev nD) (t : Fin cfg5.N)

/-- The first summand's block at point `t` is rows `5000·t …` of its array. -/
theorem blk0_rows5 : IsRows 5000 t.val (V c main_v51) (iblk5 V c 0 t) := by
  intro p j r hr
  obtain ⟨e0, e1, -⟩ := idx_facts5 t
  show V c main_v51 (((cfg5.win 0).blk t).view.emb (ix2 p j)) = V c main_v51 (ix2 r j)
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * j.val = j.val; omega

/-- The second summand's block at point `t` is rows `5000·t …` of its array. -/
theorem blk1_rows5 : IsRows 5000 t.val (V c main_v31) (iblk5 V c 1 t) := by
  intro p j r hr
  obtain ⟨-, -, e2, e3, -⟩ := idx_facts5 t
  show V c main_v31 (((cfg5.win 1).blk t).view.emb (ix2 p j)) = V c main_v31 (ix2 r j)
  refine congrArg _ (funext fun a => Fin.ext ?_)
  match a with
  | ⟨0, _⟩ => show win5_1.index t (0 : Fin 2) * 5000 + 1 * p.val = r.val; omega
  | ⟨1, _⟩ => show win5_1.index t (1 : Fin 2) * 128 + 1 * j.val = j.val; omega

/-- The weight's block at every point is the whole weight. -/
theorem blk2_eq5 (k j : Fin 128) : iblk5 V c 2 t (ix2 k j) = V c main_v55 (ix2 k j) := by
  obtain ⟨-, -, -, -, e4, e5, -⟩ := idx_facts5 t
  show V c main_v55 (((cfg5.win 2).blk t).view.emb (ix2 k j)) = V c main_v55 (ix2 k j)
  refine congrArg _ (funext fun a => Fin.ext ?_)
  match a with
  | ⟨0, _⟩ => show win5_2.index t (0 : Fin 2) * 128 + 1 * k.val = k.val; omega
  | ⟨1, _⟩ => show win5_2.index t (1 : Fin 2) * 128 + 1 * j.val = j.val; omega

/-- The bias row's block at every point is the whole row. -/
theorem blk3_eq5 (j : Fin 128) : iblk5 V c 3 t (ix2 (0 : Fin 1) j) = V c main_v56 (ix2 (0 : Fin 1) j) := by
  obtain ⟨-, -, -, -, -, -, e6, e7, -⟩ := idx_facts5 t
  show V c main_v56 (((cfg5.win 3).blk t).view.emb (ix2 (0 : Fin 1) j)) = V c main_v56 (ix2 (0 : Fin 1) j)
  refine congrArg _ (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 128 + 1 * j.val = j.val; omega

/-- WHAT POINT `t` WRITES BACK is block `t` of the layer's function of the four arrays as the region finds them. -/
theorem flushed_eq5 : (dat5 (F := Ideal) V c).flushed 4 t
    = ((cfg5.win 4).blk t).view.read (Elt Ideal) (Cert.Spec.fc3 (V c main_v51) (V c main_v31) (V c main_v55) (V c main_v56)) := by
  show (cfg5.win 4).cut (grid5.coords t) ((dat5 (F := Ideal) V c).after 4 t) = _
  rw [after5_4]
  unfold out5_4
  rw [View.canon_unit_zero hz5]
  simp only [View.ld_unit_zero (S := S5000x128) hz5, View.ld_unit_zero (S := S128x128) hz5, View.ld_unit_zero (S := S1x128) hz5]
  funext y
  obtain ⟨p, q, rfl⟩ : ∃ (p : Fin 5000) (q : Fin 128), y = ix2 p q := ⟨y 0, y 1, eq_ix2 y⟩
  obtain ⟨-, -, -, -, -, -, -, -, e8, e9⟩ := idx_facts5 t
  have hN : cfg5.N = 10 := N_5
  have hr : 5000 * t.val + p.val < 50000 := by have := t.isLt; have := p.isLt; omega
  refine (pay_rows5 t.val _ _ _ _ _ _ _ _ (blk0_rows5 V c t) (blk1_rows5 V c t) (blk2_eq5 V c t) (blk3_eq5 V c t) p q
    ⟨5000 * t.val + p.val, hr⟩ rfl).trans ?_
  show Cert.Spec.fc3 (V c main_v51) (V c main_v31) (V c main_v55) (V c main_v56) (ix2 ⟨5000 * t.val + p.val, hr⟩ q)
    = Cert.Spec.fc3 (V c main_v51) (V c main_v31) (V c main_v55) (V c main_v56) (((cfg5.win 4).blk t).view.emb (ix2 p q))
  refine congrArg _ (funext fun a => Fin.ext ?_)
  match a with
  | ⟨0, _⟩ => show 5000 * t.val + p.val = win5_4.index t (0 : Fin 2) * 5000 + 1 * p.val; omega
  | ⟨1, _⟩ => show q.val = win5_4.index t (1 : Fin 2) * 128 + 1 * q.val; omega

end Blocks

/-- An index of the output array is in point `t`'s block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v57).slice (win5_4.rect t)).set ↔ _
  rw [View.set_slice_whole, Rect.mem_set_unit]
  exact Iff.rfl

/-- Every index of the output array lies in the block of the point its row, divided by 5000, names. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, -, e8, e9⟩ := idx_facts5 t
  refine ⟨t, flush5_4 t, ?_⟩
  rw [mem_blk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- The array region 5 leaves behind its output window, as one function of the arrays it found. -/
theorem region5 (V : (c : Dev nD) → (b : Ref sig .tc) → Buf (Elt Ideal) ((c : Thread nD τ).loc b)) (c : Dev nD) :
    (dat5 (F := Ideal) V c).arrAt 4 cfg5.N = Cert.Spec.fc3 (V c main_v51) (V c main_v31) (V c main_v55) (V c main_v56) := by
  exact (dat5 (F := Ideal) V c).arrAt_eq_of_cover 4 (Cert.Spec.fc3 (V c main_v51) (V c main_v31) (V c main_v55) (V c main_v56))
    (fun t _ => flushed_eq5 V c t) cover5

end Cert.KernelIdeal.Val

end
-- ==== Proof.KValue.lean ====
/-
  The two computed results of the kernel's program as functions of the argument arrays.

  The last segment boundary's contents at the first result are what region 4 leaves in its output array; region 4 found
  the two aggregated messages, the transposed weight and the bias row that the host stretch before it computed from the
  four projections regions 0 to 3 left; and likewise for the fourth result, region 5 and the short stretch before it.
-/
import proofs.«115586_j31001073942736_1_alg».proof.Proof.KernelIdealFrame
import proofs.«115586_j31001073942736_1_alg».proof.Proof.Spec
import proofs.«115586_j31001073942736_1_alg».proof.Proof.Region0
import proofs.«115586_j31001073942736_1_alg».proof.Proof.Region1
import proofs.«115586_j31001073942736_1_alg».proof.Proof.Region2
import proofs.«115586_j31001073942736_1_alg».proof.Proof.Region3
import proofs.«115586_j31001073942736_1_alg».proof.Proof.Region4
import proofs.«115586_j31001073942736_1_alg».proof.Proof.Region5
import Idealize.ShloMosaic.Lib.StableHlo.Run
import Idealize.ShloMosaic.Lib.ValueLayout

set_option maxRecDepth 16384

noncomputable section

namespace Cert.KernelIdeal.Val

open Idealize.ShloMosaic Idealize.ShloMosaic.TcCoe
open Cert.KernelIdeal Cert.KernelIdeal.Gen Cert.KernelIdeal.GenP

variable (m : (ℓ : Loc nD τ sig) → Buf (Elt Ideal) ℓ) (ρ : Dev nD → PrngReg)

/-! ## A row vector made from a vector: the reshape and the broadcast agree

A vector of a entries viewed as a 1 × a array reads, at (u, i), the vector's entry i: the reshape because (u, i) and i
have the same row-major position (u is 0), the broadcast along axis 1 because it copies the vector's axis to that axis. -/

theorem shapeCast_row_eq_broadcast {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ValueIdx.ix2 u i := ⟨j 0, j 1, ValueIdx.eq_ix2 j⟩
  rw [ValueIdx.shapeCast_a_1a_apply]
  refine (broadcastInDim_apply _ h' x _ (ValueIdx.ix1 i) ?_).symm
  intro d
  match d with
  | ⟨0, _⟩ =>
    show i.val = if a = 1 then 0 else i.val
    split
    · next h1 => have := i.isLt; omega
    · rfl

/-! ## Stage 1: the boundary contents after regions 0 to 3

A buffer that is no window of regions 0, …, k − 1 holds at region k's entry what it held at launch. -/

theorem W1_untouched (c : Dev nD) (b : Ref sig .tc) (h0 : ∀ w, Pipeline.arrRef spec0 w ≠ b) :
    W1 (F := Ideal) m ρ c (Proc.devRef .tc b) = W0 m ρ c (Proc.devRef .tc b) :=
  W1_of_ne m ρ c b h0

theorem W2_untouched (c : Dev nD) (b : Ref sig .tc) (h0 : ∀ w, Pipeline.arrRef spec0 w ≠ b)
    (h1 : ∀ w, Pipeline.arrRef spec1 w ≠ b) :
    W2 (F := Ideal) m ρ c (Proc.devRef .tc b) = W0 m ρ c (Proc.devRef .tc b) :=
  (W2_of_ne m ρ c b h1).trans (W1_untouched m ρ c b h0)

theorem W3_untouched (c : Dev nD) (b : Ref sig .tc) (h0 : ∀ w, Pipeline.arrRef spec0 w ≠ b)
    (h1 : ∀ w, Pipeline.arrRef spec1 w ≠ b) (h2 : ∀ w, Pipeline.arrRef spec2 w ≠ b) :
    W3 (F := Ideal) m ρ c (Proc.devRef .tc b) = W0 m ρ c (Proc.devRef .tc b) :=
  (W3_of_ne m ρ c b h2).trans (W2_untouched m ρ c b h0 h1)

theorem W4_untouched (c : Dev nD) (b : Ref sig .tc) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) :
    W4 (F := Ideal) m ρ c (Proc.devRef .tc b) = W0 m ρ c (Proc.devRef .tc b) :=
  (W4_of_ne m ρ c b h3).trans (W3_untouched m ρ c b h0 h1 h2)

/-- The first projection, x0 · W11, is region 0's output and no later one of the first four regions touches it. -/
theorem W4_v0 (c : Dev nD) :
    W4 (F := Ideal) m ρ c (Proc.devRef .tc main_v0)
      = Cert.Spec.proj0 (m ((c.tc : Thread nD τ).loc main_arg0)) (m ((c.tc : Thread nD τ).loc main_arg11)) :=
  calc W4 (F := Ideal) m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 2 cfg0.N := W1_arr m ρ c 2
    _ = _ := region0 (V0 m ρ) c

/-- The second projection, x3 · W12, is region 1's output; region 1 found both its operands as launched. -/
theorem W4_v1 (c : Dev nD) :
    W4 (F := Ideal) m ρ c (Proc.devRef .tc main_v1)
      = Cert.Spec.proj3 (m ((c.tc : Thread nD τ).loc main_arg3)) (m ((c.tc : Thread nD τ).loc main_arg12)) :=
  calc W4 (F := Ideal) m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 2 cfg1.N := W2_arr m ρ c 2
    _ = Cert.Spec.proj3 (V1 m ρ c main_arg3) (V1 m ρ c main_arg12) := region1 (V1 m ρ) c
    _ = _ := congrArg₂ Cert.Spec.proj3 (W1_untouched m ρ c main_arg3 (by decide)) (W1_untouched m ρ c main_arg12 (by decide))

/-- The third projection, x1 · W13, is region 2's output. -/
theorem W4_v2 (c : Dev nD) :
    W4 (F := Ideal) m ρ c (Proc.devRef .tc main_v2)
      = Cert.Spec.proj1 (m ((c.tc : Thread nD τ).loc main_arg1)) (m ((c.tc : Thread nD τ).loc main_arg13)) :=
  calc W4 (F := Ideal) m ρ c (Proc.devRef .tc main_v2)
    _ = W3 m ρ c (Proc.devRef .tc main_v2) := W4_of_ne m ρ c main_v2 (by decide)
    _ = (dat2 (V2 m ρ) c).arrAt 2 cfg2.N := W3_arr m ρ c 2
    _ = Cert.Spec.proj1 (V2 m ρ c main_arg1) (V2 m ρ c main_arg13) := region2 (V2 m ρ) c
    _ = _ := congrArg₂ Cert.Spec.proj1 (W2_untouched m ρ c main_arg1 (by decide) (by decide))
        (W2_untouched m ρ c main_arg13 (by decide) (by decide))

/-- The fourth projection, x2 · W14, is region 3's output. -/
theorem W4_v3 (c : Dev nD) :
    W4 (F := Ideal) m ρ c (Proc.devRef .tc main_v3)
      = Cert.Spec.proj2 (m ((c.tc : Thread nD τ).loc main_arg2)) (m ((c.tc : Thread nD τ).loc main_arg14)) :=
  calc W4 (F := Ideal) m ρ c (Proc.devRef .tc main_v3)
    _ = (dat3 (V3 m ρ) c).arrAt 2 cfg3.N := W4_arr m ρ c 2
    _ = Cert.Spec.proj2 (V3 m ρ c main_arg2) (V3 m ρ c main_arg14) := region3 (V3 m ρ) c
    _ = _ := congrArg₂ Cert.Spec.proj2 (W3_untouched m ρ c main_arg2 (by decide) (by decide) (by decide))
        (W3_untouched m ρ c main_arg14 (by decide) (by decide) (by decide))

/-- An argument that is no window of the first four regions is, at region 3's exit, as launched. -/
theorem W4_arg (c : Dev nD) (b : Ref sig .tc) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) :
    W4 (F := Ideal) m ρ c (Proc.devRef .tc b) = m ((c.tc : Thread nD τ).loc b) :=
  W4_untouched m ρ c b h0 h1 h2 h3

/-! ## Stage 2: the host stretch between region 3 and region 4, from any contents

Each aggregated message is one scatter-add of one gather; the index arithmetic in front of them (the slice of an edge list,
the wrap of a negative index) is the same chain of elementwise operations on both sides, so the two terms agree once the
gather and the scatter-add are kept closed. -/

section Stretch

attribute [local irreducible] Host.gather Host.scatterAdd

theorem host4_v17 (Vw : Valuation τ sig (Elt Ideal)) :
    StableHlo.after (hostOps4 (F := Ideal)) Vw (Proc.devRef .tc main_v17)
      = Cert.Spec.agg00 (Vw (Proc.devRef .tc main_v0)) (Vw (Proc.devRef .tc main_arg5)) := by
  after_results_simp
  rfl

theorem host4_v31 (Vw : Valuation τ sig (Elt Ideal)) :
    StableHlo.after (hostOps4 (F := Ideal)) Vw (Proc.devRef .tc main_v31)
      = Cert.Spec.agg33 (Vw (Proc.devRef .tc main_v1)) (Vw (Proc.devRef .tc main_arg6)) := by
  after_results_simp
  rfl

theorem host4_v41 (Vw : Valuation τ sig (Elt Ideal)) :
    StableHlo.after (hostOps4 (F := Ideal)) Vw (Proc.devRef .tc main_v41)
      = Cert.Spec.agg10 (Vw (Proc.devRef .tc main_v2)) (Vw (Proc.devRef .tc main_arg7)) (Vw (Proc.devRef .tc main_arg8)) := by
  after_results_simp
  rfl

theorem host4_v51 (Vw : Valuation τ sig (Elt Ideal)) :
    StableHlo.after (hostOps4 (F := Ideal)) Vw (Proc.devRef .tc main_v51)
      = Cert.Spec.agg23 (Vw (Proc.devRef .tc main_v3)) (Vw (Proc.devRef .tc main_arg9)) (Vw (Proc.devRef .tc main_arg10)) := by
  after_results_simp
  rfl

end Stretch

/-- The transposed weight of the rank-0 layer. -/
theorem host4_v52 (Vw : Valuation τ sig (Elt Ideal)) :
    StableHlo.after (hostOps4 (F := Ideal)) Vw (Proc.devRef .tc main_v52)
      = transpose Cert.ReferenceIdeal.S128x128 [1, 0] (Vw (Proc.devRef .tc main_arg15))
          Cert.ReferenceIdeal.Facts₀.transposes_S128x128_S128x128_1_0 := by
  after_results_simp

/-- The bias row of the rank-0 layer: the reshape of the bias vector, which is its broadcast along axis 1. -/
theorem host4_v53 (Vw : Valuation τ sig (Elt Ideal)) :
    StableHlo.after (hostOps4 (F := Ideal)) Vw (Proc.devRef .tc main_v53)
      = broadcastInDim Cert.ReferenceIdeal.S1x128 ![1] Cert.ReferenceIdeal.Facts₀.bcast_S128_S1x128_1
          (Vw (Proc.devRef .tc main_arg16)) := by
  after_results_simp
  exact shapeCast_row_eq_broadcast _ _ _

/-- The long stretch writes neither of the rank-3 layer's two parameters. -/
theorem host4_arg17 (Vw : Valuation τ sig (Elt Ideal)) :
    StableHlo.after (hostOps4 (F := Ideal)) Vw (Proc.devRef .tc main_arg17) = Vw (Proc.devRef .tc main_arg17) := by
  after_results_simp

theorem host4_arg18 (Vw : Valuation τ sig (Elt Ideal)) :
    StableHlo.after (hostOps4 (F := Ideal)) Vw (Proc.devRef .tc main_arg18) = Vw (Proc.devRef .tc main_arg18) := by
  after_results_simp

/-! ## The short stretch between region 4 and region 5, from any contents -/

theorem host5_keeps (Vw : Valuation τ sig (Elt Ideal)) (b : Ref sig .tc) (h55 : b ≠ main_v55) (h56 : b ≠ main_v56) :
    StableHlo.after (hostOps5 (F := Ideal)) Vw (Proc.devRef .tc b) = Vw (Proc.devRef .tc b) := by
  simp only [StableHlo.after_cons, StableHlo.after_nil]
  rw [StableHlo.reshape_result_ne (h := h56), StableHlo.unary_result_ne (h := h55)]

theorem host5_v55 (Vw : Valuation τ sig (Elt Ideal)) :
    StableHlo.after (hostOps5 (F := Ideal)) Vw (Proc.devRef .tc main_v55)
      = transpose Cert.ReferenceIdeal.S128x128 [1, 0] (Vw (Proc.devRef .tc main_arg17))
          Cert.ReferenceIdeal.Facts₀.transposes_S128x128_S128x128_1_0 := by
  after_results

theorem host5_v56 (Vw : Valuation τ sig (Elt Ideal)) :
    StableHlo.after (hostOps5 (F := Ideal)) Vw (Proc.devRef .tc main_v56)
      = broadcastInDim Cert.ReferenceIdeal.S1x128 ![1] Cert.ReferenceIdeal.Facts₀.bcast_S128_S1x128_1
          (Vw (Proc.devRef .tc main_arg18)) := by
  after_results
  exact shapeCast_row_eq_broadcast _ _ _

/-! ## Stage 3: what regions 4 and 5 found, as functions of the arguments -/

theorem V5_v17 (c : Dev nD) :
    V5 (F := Ideal) m ρ c main_v17
      = Cert.Spec.agg00 (Cert.Spec.proj0 (m ((c.tc : Thread nD τ).loc main_arg0)) (m ((c.tc : Thread nD τ).loc main_arg11)))
          (m ((c.tc : Thread nD τ).loc main_arg5)) :=
  (host4_v17 (W4 m ρ c)).trans
    (congrArg₂ Cert.Spec.agg00 (W4_v0 m ρ c) (W4_arg m ρ c main_arg5 (by decide) (by decide) (by decide) (by decide)))

theorem V5_v41 (c : Dev nD) :
    V5 (F := Ideal) m ρ c main_v41
      = Cert.Spec.agg10 (Cert.Spec.proj1 (m ((c.tc : Thread nD τ).loc main_arg1)) (m ((c.tc : Thread nD τ).loc main_arg13)))
          (m ((c.tc : Thread nD τ).loc main_arg7)) (m ((c.tc : Thread nD τ).loc main_arg8)) := by
  refine (host4_v41 (W4 m ρ c)).trans ?_
  rw [W4_v2 m ρ c, W4_arg m ρ c main_arg7 (by decide) (by decide) (by decide) (by decide),
    W4_arg m ρ c main_arg8 (by decide) (by decide) (by decide) (by decide)]

theorem V5_v52 (c : Dev nD) :
    V5 (F := Ideal) m ρ c main_v52
      = transpose Cert.ReferenceIdeal.S128x128 [1, 0] (m ((c.tc : Thread nD τ).loc main_arg15))
          Cert.ReferenceIdeal.Facts₀.transposes_S128x128_S128x128_1_0 := by
  refine (host4_v52 (W4 m ρ c)).trans ?_
  rw [W4_arg m ρ c main_arg15 (by decide) (by decide) (by decide) (by decide)]

theorem V5_v53 (c : Dev nD) :
    V5 (F := Ideal) m ρ c main_v53
      = broadcastInDim Cert.ReferenceIdeal.S1x128 ![1] Cert.ReferenceIdeal.Facts₀.bcast_S128_S1x128_1
          (m ((c.tc : Thread nD τ).loc main_arg16)) := by
  refine (host4_v53 (W4 m ρ c)).trans ?_
  rw [W4_arg m ρ c main_arg16 (by decide) (by decide) (by decide) (by decide)]

/-- A buffer the short stretch does not write and region 4 has no window on holds at region 5's entry what the long
    stretch left. -/
theorem W7_of_W5 (c : Dev nD) (b : Ref sig .tc) (h55 : b ≠ main_v55) (h56 : b ≠ main_v56)
    (h4 : ∀ w, Pipeline.arrRef spec4 w ≠ b) :
    W7 (F := Ideal) m ρ c (Proc.devRef .tc b) = W5 m ρ c (Proc.devRef .tc b) :=
  (host5_keeps (W6 m ρ c) b h55 h56).trans (W6_of_ne m ρ c b h4)

theorem V7_v51 (c : Dev nD) :
    V7 (F := Ideal) m ρ c main_v51
      = Cert.Spec.agg23 (Cert.Spec.proj2 (m ((c.tc : Thread nD τ).loc main_arg2)) (m ((c.tc : Thread nD τ).loc main_arg14)))
          (m ((c.tc : Thread nD τ).loc main_arg9)) (m ((c.tc : Thread nD τ).loc main_arg10)) := by
  refine (W7_of_W5 m ρ c main_v51 (by decide) (by decide) (by decide)).trans ?_
  refine (host4_v51 (W4 m ρ c)).trans ?_
  rw [W4_v3 m ρ c, W4_arg m ρ c main_arg9 (by decide) (by decide) (by decide) (by decide),
    W4_arg m ρ c main_arg10 (by decide) (by decide) (by decide) (by decide)]

theorem V7_v31 (c : Dev nD) :
    V7 (F := Ideal) m ρ c main_v31
      = Cert.Spec.agg33 (Cert.Spec.proj3 (m ((c.tc : Thread nD τ).loc main_arg3)) (m ((c.tc : Thread nD τ).loc main_arg12)))
          (m ((c.tc : Thread nD τ).loc main_arg6)) := by
  refine (W7_of_W5 m ρ c main_v31 (by decide) (by decide) (by decide)).trans ?_
  refine (host4_v31 (W4 m ρ c)).trans ?_
  rw [W4_v1 m ρ c, W4_arg m ρ c main_arg6 (by decide) (by decide) (by decide) (by decide)]

/-- A parameter of the rank-3 layer is, at region 4's exit, as launched. -/
theorem W6_arg17 (c : Dev nD) :
    W6 (F := Ideal) m ρ c (Proc.devRef .tc main_arg17) = m ((c.tc : Thread nD τ).loc main_arg17) :=
  (W6_of_ne m ρ c main_arg17 (by decide)).trans ((host4_arg17 (W4 m ρ c)).trans
    (W4_arg m ρ c main_arg17 (by decide) (by decide) (by decide) (by decide)))

theorem W6_arg18 (c : Dev nD) :
    W6 (F := Ideal) m ρ c (Proc.devRef .tc main_arg18) = m ((c.tc : Thread nD τ).loc main_arg18) :=
  (W6_of_ne m ρ c main_arg18 (by decide)).trans ((host4_arg18 (W4 m ρ c)).trans
    (W4_arg m ρ c main_arg18 (by decide) (by decide) (by decide) (by decide)))

theorem V7_v55 (c : Dev nD) :
    V7 (F := Ideal) m ρ c main_v55
      = transpose Cert.ReferenceIdeal.S128x128 [1, 0] (m ((c.tc : Thread nD τ).loc main_arg17))
          Cert.ReferenceIdeal.Facts₀.transposes_S128x128_S128x128_1_0 := by
  refine (host5_v55 (W6 m ρ c)).trans ?_
  rw [W6_arg17 m ρ c]

theorem V7_v56 (c : Dev nD) :
    V7 (F := Ideal) m ρ c main_v56
      = broadcastInDim Cert.ReferenceIdeal.S1x128 ![1] Cert.ReferenceIdeal.Facts₀.bcast_S128_S1x128_1
          (m ((c.tc : Thread nD τ).loc main_arg18)) := by
  refine (host5_v56 (W6 m ρ c)).trans ?_
  rw [W6_arg18 m ρ c]

/-! ## The two results -/

/-- The first result: the new rank-0 features. -/
theorem result0 (c : Dev nD) :
    W8 (F := Ideal) m ρ c (Proc.devRef .tc main_v54)
      = Cert.Spec.out0 (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8))
          (m ((c.tc : Thread nD τ).loc main_arg11)) (m ((c.tc : Thread nD τ).loc main_arg13)) (m ((c.tc : Thread nD τ).loc main_arg15)) (m ((c.tc : Thread nD τ).loc main_arg16)) := by
  refine (W8_of_ne m ρ c main_v54 (by decide)).trans ?_
  refine (host5_keeps (W6 m ρ c) main_v54 (by decide) (by decide)).trans ?_
  refine (W6_arr m ρ c 4).trans ?_
  refine (region4 (V5 m ρ) c).trans ?_
  rw [V5_v17 m ρ c, V5_v41 m ρ c, V5_v52 m ρ c, V5_v53 m ρ c]
  rfl

/-- The fourth result: the new rank-3 features. -/
theorem result3 (c : Dev nD) :
    W8 (F := Ideal) m ρ c (Proc.devRef .tc main_v57)
      = Cert.Spec.out3 (m ((c.tc : Thread nD τ).loc main_arg2)) (m ((c.tc : Thread nD τ).loc main_arg3)) (m ((c.tc : Thread nD τ).loc main_arg6)) (m ((c.tc : Thread nD τ).loc main_arg9)) (m ((c.tc : Thread nD τ).loc main_arg10))
          (m ((c.tc : Thread nD τ).loc main_arg14)) (m ((c.tc : Thread nD τ).loc main_arg12)) (m ((c.tc : Thread nD τ).loc main_arg17)) (m ((c.tc : Thread nD τ).loc main_arg18)) := by
  refine (W8_arr m ρ c 4).trans ?_
  refine (region5 (V7 m ρ) c).trans ?_
  rw [V7_v51 m ρ c, V7_v31 m ρ c, V7_v55 m ρ c, V7_v56 m ρ c]
  rfl

end Cert.KernelIdeal.Val

end
-- ==== Proof.RefOps.lean ====
import proofs.«115586_j31001073942736_1_alg».proof.ReferenceIdeal
import proofs.«115586_j31001073942736_1_alg».proof.Proof.Gen.ReferenceIdeal
import Idealize.ShloMosaic.Lib.StableHlo.Run

noncomputable section

namespace Cert.ReferenceIdeal.Ops

open Idealize.ShloMosaic Cert.ReferenceIdeal Cert.ReferenceIdeal.Facts₀

variable {F : FTy → Type} [FloatOps F]

set_option maxHeartbeats 4000000 in
/-- @main's first printed window: the four projections and the four aggregations but the last scatter. -/
abbrev ops0 : List (HloOp τ sig (Elt F)) :=
  [ StableHlo.binary main_arg0 main_arg11 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg5 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.unary main_arg5 main_v3 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v3 main_v4 rfl shapeCasts_S1x800000_S800000,
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v4 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v4 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v4 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_v0 main_v10 main_v11 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v12 (broadcastInDim S100000x128 ![] bcast_S_S100000x128 : (⟨S_, .f32⟩ : BufTy).Contents (Elt F) → (⟨S100000x128, .f32⟩ : BufTy).Contents (Elt F)),
    StableHlo.unary main_v2 main_v13 (broadcastInDim S800000x1 ![0] bcast_S800000_S800000x1_0 : (⟨S800000, .i32⟩ : BufTy).Contents (Elt F) → (⟨S800000x1, .i32⟩ : BufTy).Contents (Elt F)),
    StableHlo.ternary main_v12 main_v13 main_v11 main_v14 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_arg3 main_arg12 main_v15 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg6 main_v16 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v16 main_v17 rfl shapeCasts_S1x800000_S800000,
    StableHlo.unary main_arg6 main_v18 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v18 main_v19 rfl shapeCasts_S1x800000_S800000,
    StableHlo.nullary main_c_1 (constantI S_ 32 0#32),
    StableHlo.unary main_c_1 main_v20 (broadcastInDim S800000 ![] bcast_S_S800000 : (⟨S_, .i32⟩ : BufTy).Contents (Elt F) → (⟨S800000, .i32⟩ : BufTy).Contents (Elt F)),
    StableHlo.binary main_v19 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v22 (broadcastInDim S800000 ![] bcast_S_S800000 : (⟨S_, .i32⟩ : BufTy).Contents (Elt F) → (⟨S800000, .i32⟩ : BufTy).Contents (Elt F)),
    StableHlo.binary main_v19 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v19 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v15 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v27 (broadcastInDim S50000x128 ![] bcast_S_S50000x128 : (⟨S_, .f32⟩ : BufTy).Contents (Elt F) → (⟨S50000x128, .f32⟩ : BufTy).Contents (Elt F)),
    StableHlo.unary main_v17 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v26 main_v29 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg1 main_arg13 main_v30 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    StableHlo.nullary main_c_4 (constantI S_ 32 0#32),
    StableHlo.unary main_c_4 main_v31 (broadcastInDim S600000 ![] bcast_S_S600000 : (⟨S_, .i32⟩ : BufTy).Contents (Elt F) → (⟨S600000, .i32⟩ : BufTy).Contents (Elt F)),
    StableHlo.binary main_arg8 main_v31 main_v32 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 300000#32),
    StableHlo.unary main_c_5 main_v33 (broadcastInDim S600000 ![] bcast_S_S600000 : (⟨S_, .i32⟩ : BufTy).Contents (Elt F) → (⟨S600000, .i32⟩ : BufTy).Contents (Elt F)),
    StableHlo.binary main_arg8 main_v33 main_v34 (addi : (⟨S600000, .i32⟩ : BufTy).Contents (Elt F) → (⟨S600000, .i32⟩ : BufTy).Contents (Elt F) → (⟨S600000, .i32⟩ : BufTy).Contents (Elt F)),
    StableHlo.ternary main_v32 main_v34 main_arg8 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v35 main_v36 (broadcastInDim S600000x1 ![0] bcast_S600000_S600000x1_0 : (⟨S600000, .i32⟩ : BufTy).Contents (Elt F) → (⟨S600000x1, .i32⟩ : BufTy).Contents (Elt F)),
    StableHlo.binary main_v30 main_v36 main_v37 ((fun x i => Host.gather gather_S300000x128_S600000x1_S600000x128_1_0_n_n_0_1_1128 x i) : (⟨S300000x128, .f32⟩ : BufTy).Contents (Elt F) → (⟨S600000x1, .i32⟩ : BufTy).Contents (Elt F) → (⟨S600000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_arg7 main_v39 (broadcastInDim S600000x1 ![0] bcast_S600000_S600000x1_0 : (⟨S600000, .i32⟩ : BufTy).Contents (Elt F) → (⟨S600000x1, .i32⟩ : BufTy).Contents (Elt F)),
    StableHlo.ternary main_v38 main_v39 main_v37 main_v40 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_arg2 main_arg14 main_v41 ((fun l r => Host.dotGeneral dot_S150000x64_S64x128_S150000x128_1_0_0_1_n_n none l r) : (⟨S150000x64, .f32⟩ : BufTy).Contents (Elt F) → (⟨S64x128, .f32⟩ : BufTy).Contents (Elt F) → (⟨S150000x128, .f32⟩ : BufTy).Contents (Elt F)),
    StableHlo.nullary main_c_7 (constantI S_ 32 0#32),
    StableHlo.unary main_c_7 main_v42 (broadcastInDim S200000 ![] bcast_S_S200000 : (⟨S_, .i32⟩ : BufTy).Contents (Elt F) → (⟨S200000, .i32⟩ : BufTy).Contents (Elt F)),
    StableHlo.binary main_arg9 main_v42 main_v43 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 150000#32),
    StableHlo.unary main_c_8 main_v44 (broadcastInDim S200000 ![] bcast_S_S200000 : (⟨S_, .i32⟩ : BufTy).Contents (Elt F) → (⟨S200000, .i32⟩ : BufTy).Contents (Elt F)),
    StableHlo.binary main_arg9 main_v44 main_v45 (addi : (⟨S200000, .i32⟩ : BufTy).Contents (Elt F) → (⟨S200000, .i32⟩ : BufTy).Contents (Elt F) → (⟨S200000, .i32⟩ : BufTy).Contents (Elt F)),
    StableHlo.ternary main_v43 main_v45 main_arg9 main_v46 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v46 main_v47 (broadcastInDim S200000x1 ![0] bcast_S200000_S200000x1_0 : (⟨S200000, .i32⟩ : BufTy).Contents (Elt F) → (⟨S200000x1, .i32⟩ : BufTy).Contents (Elt F)),
    StableHlo.binary main_v41 main_v47 main_v48 ((fun x i => Host.gather gather_S150000x128_S200000x1_S200000x128_1_0_n_n_0_1_1128 x i) : (⟨S150000x128, .f32⟩ : BufTy).Contents (Elt F) → (⟨S200000x1, .i32⟩ : BufTy).Contents (Elt F) → (⟨S200000x128, .f32⟩ : BufTy).Contents (Elt F)) ]

set_option maxHeartbeats 4000000 in
/-- @main's second printed window: the last scatter, then per output the sum, the product with the transposed weight, the bias and the leaky rectifier (the callee's operations at the call). -/
abbrev ops1 : List (HloOp τ sig (Elt F)) :=
  [ StableHlo.nullary main_cst_9 (constant S_ .f32 0x00000000#32),
    StableHlo.unary main_cst_9 main_v49 (broadcastInDim S50000x128 ![] bcast_S_S50000x128 : (⟨S_, .f32⟩ : BufTy).Contents (Elt F) → (⟨S50000x128, .f32⟩ : BufTy).Contents (Elt F)),
    StableHlo.unary main_arg10 main_v50 (broadcastInDim S200000x1 ![0] bcast_S200000_S200000x1_0 : (⟨S200000, .i32⟩ : BufTy).Contents (Elt F) → (⟨S200000x1, .i32⟩ : BufTy).Contents (Elt F)),
    StableHlo.ternary main_v49 main_v50 main_v48 main_v51 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.binary main_v14 main_v40 main_v52 (addf : (⟨S100000x128, .f32⟩ : BufTy).Contents (Elt F) → (⟨S100000x128, .f32⟩ : BufTy).Contents (Elt F) → (⟨S100000x128, .f32⟩ : BufTy).Contents (Elt F)),
    StableHlo.unary main_arg15 main_v53 ((transpose S128x128 [1, 0] · transposes_S128x128_S128x128_1_0) : (⟨S128x128, .f32⟩ : BufTy).Contents (Elt F) → (⟨S128x128, .f32⟩ : BufTy).Contents (Elt F)),
    StableHlo.binary main_v52 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3E4CCCCD#32),
    StableHlo.TRef.nullary main_call0.cst (constant S_ .f32 0x00000000#32),
    StableHlo.TRef.unary main_call0.cst main_call0.v0 (broadcastInDim S100000x128 ![] bcast_S_S100000x128),
    StableHlo.TRef.binary (.of main_v57) main_call0.v0 main_call0.v1 (cmpf .oge),
    StableHlo.TRef.unary (.of main_cst_10) main_call0.v2 id,
    StableHlo.TRef.unary main_call0.v2 main_call0.v3 (broadcastInDim S100000x128 ![] bcast_S_S100000x128),
    StableHlo.TRef.binary main_call0.v3 (.of main_v57) main_call0.v4 mulf,
    StableHlo.TRef.ternary main_call0.v1 (.of main_v57) main_call0.v4 main_call0.call0.v0 select,
    StableHlo.binary main_v51 main_v29 main_v59 (addf : (⟨S50000x128, .f32⟩ : BufTy).Contents (Elt F) → (⟨S50000x128, .f32⟩ : BufTy).Contents (Elt F) → (⟨S50000x128, .f32⟩ : BufTy).Contents (Elt F)),
    StableHlo.unary main_arg17 main_v60 ((transpose S128x128 [1, 0] · transposes_S128x128_S128x128_1_0) : (⟨S128x128, .f32⟩ : BufTy).Contents (Elt F) → (⟨S128x128, .f32⟩ : BufTy).Contents (Elt F)),
    StableHlo.binary main_v59 main_v60 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg18 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3E4CCCCD#32),
    StableHlo.TRef.nullary main_call1.cst (constant S_ .f32 0x00000000#32),
    StableHlo.TRef.unary main_call1.cst main_call1.v0 (broadcastInDim S50000x128 ![] bcast_S_S50000x128),
    StableHlo.TRef.binary (.of main_v64) main_call1.v0 main_call1.v1 (cmpf .oge),
    StableHlo.TRef.unary (.of main_cst_11) main_call1.v2 id,
    StableHlo.TRef.unary main_call1.v2 main_call1.v3 (broadcastInDim S50000x128 ![] bcast_S_S50000x128),
    StableHlo.TRef.binary main_call1.v3 (.of main_v64) main_call1.v4 mulf,
    StableHlo.TRef.ternary main_call1.v1 (.of main_v64) main_call1.v4 main_call1.call0.v0 select ]

end Cert.ReferenceIdeal.Ops

end
-- ==== Proof.RefLine.lean ====
/-
  The reference's @main is a straight line: its two printed windows, with the leaky rectifier's two calls unfolded at
  their call sites, are the lists of their host operations run in order. Hence every weakly fair execution terminates
  with every buffer at the fold of the ninety-two operations' results over the launch contents.
-/
import proofs.«115586_j31001073942736_1_alg».proof.Proof.RefOps
import Idealize.ShloMosaic.Lib.StableHlo.Run

noncomputable section

namespace Cert.ReferenceIdeal.RefLine

open Idealize.ShloMosaic Idealize.ShloMosaic.TcCoe Idealize.ShloMosaic.StableHlo Idealize.SL.Sem
open Cert.ReferenceIdeal Cert.ReferenceIdeal.Facts₀ Cert.ReferenceIdeal.Ops

variable {F : FTy → Type} [FloatOps F]

/-! ## The program is one line of operations -/

set_option maxRecDepth 4096 in
set_option maxHeartbeats 4000000 in
/-- The first printed window is the line of its sixty operations: both sides are the same chain of `hlo` steps. -/
theorem part0_eq (c : Dev nD) : main_part0 (F := F) c = seq ops0 := rfl

set_option maxRecDepth 4096 in
set_option maxHeartbeats 4000000 in
/-- The second printed window, with the leaky rectifier's two calls (and the select each of them calls) unfolded at
    their call sites, is the line of its thirty-two operations once sequencing is reassociated. -/
theorem part1_eq (c : Dev nD) : main_part1 (F := F) c = seq ops1 := by
  simp only [main_part1, fn_leaky_relu.body, fn_leaky_relu_0.body, fn_where.body, fn_where_1.body, seq, bind_assoc, pure_bind]

/-- @main runs the two windows in order, so it is the line of all ninety-two operations. -/
theorem main_eq (c : Dev nD) : main (F := F) c = seq (ops0 ++ ops1) := by
  show (main_part0 (F := F) c >>= fun _ => main_part1 (F := F) c) = _
  rw [part0_eq, part1_eq, seq_append]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the first window touches TensorCore buffers only. -/
theorem ops0_sub : (ops0 : List (HloOp τ sig (Elt F))).Forall fun op => op.bufs ⊆ tcRefs τ sig :=
  ⟨binary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- Every operation of the second window touches TensorCore buffers only. -/
theorem ops1_sub : (ops1 : List (HloOp τ sig (Elt F))).Forall fun op => op.bufs ⊆ tcRefs τ sig :=
  ⟨nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- No operation of the first window allocates: each determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- No operation of the second window allocates. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- A property of every operation of each window holds of every operation of the whole line. -/
theorem forall_both {p : HloOp τ sig (Elt F) → Prop} (h0 : (ops0 (F := F)).Forall p) (h1 : (ops1 (F := F)).Forall p) :
    ∀ op ∈ (ops0 ++ ops1 : List (HloOp τ sig (Elt F))), p op := fun op h =>
  (List.mem_append.mp h).elim (List.forall_iff_forall_mem.mp h0 op) (List.forall_iff_forall_mem.mp h1 op)

/-- Every weakly fair execution of the reference terminates, and every final state has each TensorCore buffer at the
    fold of the ninety-two operations' results over its launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops0 ++ ops1) (launchContents m c) (b : DevRef τ sig) :=
  run_seq scopedRefs_eq scopedSems_eq defs main (fun _ => ops0 ++ ops1) main_eq
    (fun _ => List.forall_iff_forall_mem.mpr (forall_both ops0_sub ops1_sub)) m ρ (fun _ => forall_both ops0_fresh ops1_fresh)

end Cert.ReferenceIdeal.RefLine

end
-- ==== Proof.RefStages.lean ====
/-
  The fold of the reference's operations read at its two computed results. Each aggregation is a stretch of the first
  window (a projection, the two ends of the edge list, the wrap of negative sources, the gather, the scatter-add from
  zero); the second window adds two aggregations, multiplies by the transposed weight, adds the bias row and applies
  the leaky rectifier. Composed, the two results are the layer's two output functions of the argument arrays, and no
  operation writes an argument array. Everything is stated at an arbitrary float type and read at the exact instance
  only in the last two equations.
-/
import proofs.«115586_j31001073942736_1_alg».proof.Proof.RefOps
import proofs.«115586_j31001073942736_1_alg».proof.Proof.Spec
import Idealize.ShloMosaic.Lib.StableHlo.Run
import Idealize.ShloMosaic.Lib.Pipeline.Frame

noncomputable section

namespace Cert.ReferenceIdeal.RefStages

open Idealize.ShloMosaic Idealize.ShloMosaic.TcCoe Idealize.ShloMosaic.StableHlo Idealize.SL.Sem
open Cert.ReferenceIdeal Cert.ReferenceIdeal.Facts₀ Cert.ReferenceIdeal.Ops

variable {F : FTy → Type} [FloatOps F]

/-! ## The layer's pieces at an arbitrary float type

The same composed terms as the specification's, written over any float operations: that the fold of the operations is
these terms uses nothing about the float operations, so it is shown for every float type and read at the exact instance
only at the end.
The index arithmetic (the two ends of an edge list, the wrap of a negative index) has no float in it and is the
specification's own. -/

section Terms

/-- A feature matrix times its 64 × 128 weight, at each of the four ranks' row counts. -/
def proj0 (x : FVec F S100000x64 .f32) (w : FVec F S64x128 .f32) : FVec F S100000x128 .f32 :=
  Host.dotGeneral dot_S100000x64_S64x128_S100000x128_1_0_0_1_n_n none x w
def proj1 (x : FVec F S300000x64 .f32) (w : FVec F S64x128 .f32) : FVec F S300000x128 .f32 :=
  Host.dotGeneral dot_S300000x64_S64x128_S300000x128_1_0_0_1_n_n none x w
def proj2 (x : FVec F S150000x64 .f32) (w : FVec F S64x128 .f32) : FVec F S150000x128 .f32 :=
  Host.dotGeneral dot_S150000x64_S64x128_S150000x128_1_0_0_1_n_n none x w
def proj3 (x : FVec F S50000x64 .f32) (w : FVec F S64x128 .f32) : FVec F S50000x128 .f32 :=
  Host.dotGeneral dot_S50000x64_S64x128_S50000x128_1_0_0_1_n_n none x w

/-- Rank 0's own adjacency: the projected row at each edge's source (a negative source counted from the end) added into
    the row of the edge's destination, from zero. -/
def agg00 (p : FVec F S100000x128 .f32) (e : IVec S2x800000 32) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 (Cert.Spec.edgeDst e))
    (Host.gather gather_S100000x128_S800000x1_S800000x128_1_0_n_n_0_1_1128 p
      (broadcastInDim S800000x1 ![0] bcast_S800000_S800000x1_0 (Cert.Spec.wrap800k 100000#32 (Cert.Spec.edgeSrc e))))

/-- Rank 3's own adjacency, likewise over its 50000 rows. -/
def agg33 (p : FVec F S50000x128 .f32) (e : IVec S2x800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (Cert.Spec.edgeDst e))
    (Host.gather gather_S50000x128_S800000x1_S800000x128_1_0_n_n_0_1_1128 p
      (broadcastInDim S800000x1 ![0] bcast_S800000_S800000x1_0 (Cert.Spec.wrap800k 50000#32 (Cert.Spec.edgeSrc e))))

/-- The rows an incidence gathers from the projected rank-1 features: row `s e` for each of the 600000 pairs. -/
def rows10 (p : FVec F S300000x128 .f32) (s : IVec S600000 32) : FVec F S600000x128 .f32 :=
  Host.gather gather_S300000x128_S600000x1_S600000x128_1_0_n_n_0_1_1128 p
    (broadcastInDim S600000x1 ![0] bcast_S600000_S600000x1_0 (Cert.Spec.wrap600k 300000#32 s))

/-- Rank 1 into rank 0: the gathered rows added into the rows `t e`, from zero. -/
def agg10 (p : FVec F S300000x128 .f32) (t s : IVec S600000 32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 t) (rows10 p s)

/-- The rows an incidence gathers from the projected rank-2 features: row `t e` for each of the 200000 pairs. -/
def rows23 (p : FVec F S150000x128 .f32) (t : IVec S200000 32) : FVec F S200000x128 .f32 :=
  Host.gather gather_S150000x128_S200000x1_S200000x128_1_0_n_n_0_1_1128 p
    (broadcastInDim S200000x1 ![0] bcast_S200000_S200000x1_0 (Cert.Spec.wrap200k 150000#32 t))

/-- Gathered rows added into the rows `s e` of rank 3, from zero. -/
def into3 (g : FVec F S200000x128 .f32) (s : IVec S200000 32) : FVec F S50000x128 .f32 :=
  Host.scatterAdd scatter_S50000x128_S200000x1_S200000x128_1_0_0_1
    (broadcastInDim S50000x128 ![] bcast_S_S50000x128 (constant S_ .f32 0x00000000#32))
    (broadcastInDim S200000x1 ![0] bcast_S200000_S200000x1_0 s) g

/-- Rank 2 into rank 3 along the incidence. -/
def agg23 (p : FVec F S150000x128 .f32) (t s : IVec S200000 32) : FVec F S50000x128 .f32 := into3 (rows23 p t) s

/-- `leaky((a + b) · Wᵀ + bias)` on 100000 rows, from the raw weight and bias row. -/
def fc0 (a b : FVec F S100000x128 .f32) (fw : FVec F S128x128 .f32) (fb : FVec F S128 .f32) : FVec F S100000x128 .f32 :=
  let y := addf (Host.dotGeneral dot_S100000x128_S128x128_S100000x128_1_0_0_1_n_n none (addf a b)
      (transpose S128x128 [1, 0] fw transposes_S128x128_S128x128_1_0))
    (broadcastInDim S100000x128 ![0, 1] bcast_S1x128_S100000x128_0_1 (broadcastInDim S1x128 ![1] bcast_S128_S1x128_1 fb))
  select (cmpf .oge y (broadcastInDim S100000x128 ![] bcast_S_S100000x128 (constant S_ .f32 0x00000000#32))) y
    (mulf (broadcastInDim S100000x128 ![] bcast_S_S100000x128 (id (constant S_ .f32 0x3E4CCCCD#32))) y)

/-- The same on 50000 rows. -/
def fc3 (a b : FVec F S50000x128 .f32) (fw : FVec F S128x128 .f32) (fb : FVec F S128 .f32) : FVec F S50000x128 .f32 :=
  let y := addf (Host.dotGeneral dot_S50000x128_S128x128_S50000x128_1_0_0_1_n_n none (addf a b)
      (transpose S128x128 [1, 0] fw transposes_S128x128_S128x128_1_0))
    (broadcastInDim S50000x128 ![0, 1] bcast_S1x128_S50000x128_0_1 (broadcastInDim S1x128 ![1] bcast_S128_S1x128_1 fb))
  select (cmpf .oge y (broadcastInDim S50000x128 ![] bcast_S_S50000x128 (constant S_ .f32 0x00000000#32))) y
    (mulf (broadcastInDim S50000x128 ![] bcast_S_S50000x128 (id (constant S_ .f32 0x3E4CCCCD#32))) y)

end Terms

/-! ## No operation writes an argument array

Each operation writes one buffer; the buffers a window writes, listed in order, hold no argument array, so the fold leaves
every argument array at its launch contents. -/

/-- Two valuations agree on the nineteen argument arrays. -/
structure ArgsKept (W V : Valuation τ sig (Elt F)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)
  a13 : W (main_arg13 : DevRef τ sig) = V (main_arg13 : DevRef τ sig)
  a14 : W (main_arg14 : DevRef τ sig) = V (main_arg14 : DevRef τ sig)
  a15 : W (main_arg15 : DevRef τ sig) = V (main_arg15 : DevRef τ sig)
  a16 : W (main_arg16 : DevRef τ sig) = V (main_arg16 : DevRef τ sig)
  a17 : W (main_arg17 : DevRef τ sig) = V (main_arg17 : DevRef τ sig)
  a18 : W (main_arg18 : DevRef τ sig) = V (main_arg18 : DevRef τ sig)

/-- Agreement on the arguments composes. -/
theorem ArgsKept.trans {X W V : Valuation τ sig (Elt F)} (h : ArgsKept X W) (g : ArgsKept W V) : ArgsKept X V :=
  ⟨h.a0.trans g.a0, h.a1.trans g.a1, h.a2.trans g.a2, h.a3.trans g.a3, h.a4.trans g.a4, h.a5.trans g.a5, h.a6.trans g.a6, h.a7.trans g.a7, h.a8.trans g.a8, h.a9.trans g.a9, h.a10.trans g.a10, h.a11.trans g.a11, h.a12.trans g.a12, h.a13.trans g.a13, h.a14.trans g.a14, h.a15.trans g.a15, h.a16.trans g.a16, h.a17.trans g.a17, h.a18.trans g.a18⟩

/-- An operation whose one written buffer is in a list writes inside that list. -/
theorem writes_in {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The buffers the first window writes, in order. -/
abbrev written0 : List (Ref sig .tc) :=
  [main_v0, main_v1, main_v2, main_v3, main_v4, main_c, main_v5, main_v6, main_c_0, main_v7, main_v8, main_v9,
    main_v10, main_v11, main_cst, main_v12, main_v13, main_v14, main_v15, main_v16, main_v17, main_v18, main_v19, main_c_1,
    main_v20, main_v21, main_c_2, main_v22, main_v23, main_v24, main_v25, main_v26, main_cst_3, main_v27, main_v28, main_v29,
    main_v30, main_c_4, main_v31, main_v32, main_c_5, main_v33, main_v34, main_v35, main_v36, main_v37, main_cst_6, main_v38,
    main_v39, main_v40, main_v41, main_c_7, main_v42, main_v43, main_c_8, main_v44, main_v45, main_v46, main_v47, main_v48]

/-- The buffers the second window writes, in order (the rectifier's calls write their own records' buffers). -/
abbrev written1 : List (Ref sig .tc) :=
  [main_cst_9, main_v49, main_v50, main_v51, main_v52, main_v53, main_v54, main_v55, main_v56, main_v57, main_cst_10, main_call0_cst,
    main_call0_v0, main_call0_v1, main_call0_v2, main_call0_v3, main_call0_v4, main_v58, main_v59, main_v60, main_v61, main_v62, main_v63, main_v64,
    main_cst_11, main_call1_cst, main_call1_v0, main_call1_v1, main_call1_v2, main_call1_v3, main_call1_v4, main_v65]

set_option maxRecDepth 4096 in
theorem ops0_writes : (ops0 : List (HloOp τ sig (Elt F))).Forall fun op =>
    op.writes ⊆ (written0.map (Proc.devRef (τ := τ) .tc)).toFinset :=
  ⟨writes_in main_v0 rfl (by decide), writes_in main_v1 rfl (by decide), writes_in main_v2 rfl (by decide), writes_in main_v3 rfl (by decide),
    writes_in main_v4 rfl (by decide), writes_in main_c rfl (by decide), writes_in main_v5 rfl (by decide), writes_in main_v6 rfl (by decide),
    writes_in main_c_0 rfl (by decide), writes_in main_v7 rfl (by decide), writes_in main_v8 rfl (by decide), writes_in main_v9 rfl (by decide),
    writes_in main_v10 rfl (by decide), writes_in main_v11 rfl (by decide), writes_in main_cst rfl (by decide), writes_in main_v12 rfl (by decide),
    writes_in main_v13 rfl (by decide), writes_in main_v14 rfl (by decide), writes_in main_v15 rfl (by decide), writes_in main_v16 rfl (by decide),
    writes_in main_v17 rfl (by decide), writes_in main_v18 rfl (by decide), writes_in main_v19 rfl (by decide), writes_in main_c_1 rfl (by decide),
    writes_in main_v20 rfl (by decide), writes_in main_v21 rfl (by decide), writes_in main_c_2 rfl (by decide), writes_in main_v22 rfl (by decide),
    writes_in main_v23 rfl (by decide), writes_in main_v24 rfl (by decide), writes_in main_v25 rfl (by decide), writes_in main_v26 rfl (by decide),
    writes_in main_cst_3 rfl (by decide), writes_in main_v27 rfl (by decide), writes_in main_v28 rfl (by decide), writes_in main_v29 rfl (by decide),
    writes_in main_v30 rfl (by decide), writes_in main_c_4 rfl (by decide), writes_in main_v31 rfl (by decide), writes_in main_v32 rfl (by decide),
    writes_in main_c_5 rfl (by decide), writes_in main_v33 rfl (by decide), writes_in main_v34 rfl (by decide), writes_in main_v35 rfl (by decide),
    writes_in main_v36 rfl (by decide), writes_in main_v37 rfl (by decide), writes_in main_cst_6 rfl (by decide), writes_in main_v38 rfl (by decide),
    writes_in main_v39 rfl (by decide), writes_in main_v40 rfl (by decide), writes_in main_v41 rfl (by decide), writes_in main_c_7 rfl (by decide),
    writes_in main_v42 rfl (by decide), writes_in main_v43 rfl (by decide), writes_in main_c_8 rfl (by decide), writes_in main_v44 rfl (by decide),
    writes_in main_v45 rfl (by decide), writes_in main_v46 rfl (by decide), writes_in main_v47 rfl (by decide), writes_in main_v48 rfl (by decide)⟩

set_option maxRecDepth 4096 in
theorem ops1_writes : (ops1 : List (HloOp τ sig (Elt F))).Forall fun op =>
    op.writes ⊆ (written1.map (Proc.devRef (τ := τ) .tc)).toFinset :=
  ⟨writes_in main_cst_9 rfl (by decide), writes_in main_v49 rfl (by decide), writes_in main_v50 rfl (by decide), writes_in main_v51 rfl (by decide),
    writes_in main_v52 rfl (by decide), writes_in main_v53 rfl (by decide), writes_in main_v54 rfl (by decide), writes_in main_v55 rfl (by decide),
    writes_in main_v56 rfl (by decide), writes_in main_v57 rfl (by decide), writes_in main_cst_10 rfl (by decide), writes_in main_call0_cst rfl (by decide),
    writes_in main_call0_v0 rfl (by decide), writes_in main_call0_v1 rfl (by decide), writes_in main_call0_v2 rfl (by decide), writes_in main_call0_v3 rfl (by decide),
    writes_in main_call0_v4 rfl (by decide), writes_in main_v58 rfl (by decide), writes_in main_v59 rfl (by decide), writes_in main_v60 rfl (by decide),
    writes_in main_v61 rfl (by decide), writes_in main_v62 rfl (by decide), writes_in main_v63 rfl (by decide), writes_in main_v64 rfl (by decide),
    writes_in main_cst_11 rfl (by decide), writes_in main_call1_cst rfl (by decide), writes_in main_call1_v0 rfl (by decide), writes_in main_call1_v1 rfl (by decide),
    writes_in main_call1_v2 rfl (by decide), writes_in main_call1_v3 rfl (by decide), writes_in main_call1_v4 rfl (by decide), writes_in main_v65 rfl (by decide)⟩

/-- No operation of the first window writes an argument array. -/
theorem w0_args (V : Valuation τ sig (Elt F)) : ArgsKept (after ops0 V) V :=
  ⟨after_of_writes_sub ops0 _ ops0_writes (by decide), after_of_writes_sub ops0 _ ops0_writes (by decide), after_of_writes_sub ops0 _ ops0_writes (by decide),
    after_of_writes_sub ops0 _ ops0_writes (by decide), after_of_writes_sub ops0 _ ops0_writes (by decide), after_of_writes_sub ops0 _ ops0_writes (by decide),
    after_of_writes_sub ops0 _ ops0_writes (by decide), after_of_writes_sub ops0 _ ops0_writes (by decide), after_of_writes_sub ops0 _ ops0_writes (by decide),
    after_of_writes_sub ops0 _ ops0_writes (by decide), after_of_writes_sub ops0 _ ops0_writes (by decide), after_of_writes_sub ops0 _ ops0_writes (by decide),
    after_of_writes_sub ops0 _ ops0_writes (by decide), after_of_writes_sub ops0 _ ops0_writes (by decide), after_of_writes_sub ops0 _ ops0_writes (by decide),
    after_of_writes_sub ops0 _ ops0_writes (by decide), after_of_writes_sub ops0 _ ops0_writes (by decide), after_of_writes_sub ops0 _ ops0_writes (by decide),
    after_of_writes_sub ops0 _ ops0_writes (by decide)⟩

/-- No operation of the second window writes an argument array. -/
theorem w1_args (W : Valuation τ sig (Elt F)) : ArgsKept (after ops1 W) W :=
  ⟨after_of_writes_sub ops1 _ ops1_writes (by decide), after_of_writes_sub ops1 _ ops1_writes (by decide), after_of_writes_sub ops1 _ ops1_writes (by decide),
    after_of_writes_sub ops1 _ ops1_writes (by decide), after_of_writes_sub ops1 _ ops1_writes (by decide), after_of_writes_sub ops1 _ ops1_writes (by decide),
    after_of_writes_sub ops1 _ ops1_writes (by decide), after_of_writes_sub ops1 _ ops1_writes (by decide), after_of_writes_sub ops1 _ ops1_writes (by decide),
    after_of_writes_sub ops1 _ ops1_writes (by decide), after_of_writes_sub ops1 _ ops1_writes (by decide), after_of_writes_sub ops1 _ ops1_writes (by decide),
    after_of_writes_sub ops1 _ ops1_writes (by decide), after_of_writes_sub ops1 _ ops1_writes (by decide), after_of_writes_sub ops1 _ ops1_writes (by decide),
    after_of_writes_sub ops1 _ ops1_writes (by decide), after_of_writes_sub ops1 _ ops1_writes (by decide), after_of_writes_sub ops1 _ ops1_writes (by decide),
    after_of_writes_sub ops1 _ ops1_writes (by decide)⟩

/-! ## The first window: the four projections, three aggregations and the gathered rows of the fourth -/

section Window0
attribute [local irreducible] Host.gather Host.scatterAdd

set_option maxRecDepth 8192 in
set_option maxHeartbeats 4000000 in
/-- Rank 0's own aggregation: operations 1 to 18 composed. -/
theorem w0_v14 (V : Valuation τ sig (Elt F)) :
    after ops0 V (main_v14 : DevRef τ sig)
      = agg00 (proj0 (V (main_arg0 : DevRef τ sig)) (V (main_arg11 : DevRef τ sig))) (V (main_arg5 : DevRef τ sig)) := by
  after_results_simp
  rfl

set_option maxRecDepth 8192 in
set_option maxHeartbeats 4000000 in
/-- Rank 3's own aggregation: operations 19 to 36 composed. -/
theorem w0_v29 (V : Valuation τ sig (Elt F)) :
    after ops0 V (main_v29 : DevRef τ sig)
      = agg33 (proj3 (V (main_arg3 : DevRef τ sig)) (V (main_arg12 : DevRef τ sig))) (V (main_arg6 : DevRef τ sig)) := by
  after_results_simp
  rfl

set_option maxRecDepth 8192 in
set_option maxHeartbeats 4000000 in
/-- Rank 1 into rank 0: operations 37 to 49 composed. -/
theorem w0_v40 (V : Valuation τ sig (Elt F)) :
    after ops0 V (main_v40 : DevRef τ sig)
      = agg10 (proj1 (V (main_arg1 : DevRef τ sig)) (V (main_arg13 : DevRef τ sig))) (V (main_arg7 : DevRef τ sig)) (V (main_arg8 : DevRef τ sig)) := by
  after_results_simp
  rfl

set_option maxRecDepth 8192 in
set_option maxHeartbeats 4000000 in
/-- The rows gathered from the projected rank-2 features: operations 50 to 60 composed. -/
theorem w0_v48 (V : Valuation τ sig (Elt F)) :
    after ops0 V (main_v48 : DevRef τ sig)
      = rows23 (proj2 (V (main_arg2 : DevRef τ sig)) (V (main_arg14 : DevRef τ sig))) (V (main_arg9 : DevRef τ sig)) := by
  after_results_simp
  rfl

end Window0

/-! ## The second window: the last scatter, then per output the sum, the product, the bias and the rectifier -/

section Window1
attribute [local irreducible] Host.gather Host.scatterAdd

set_option maxRecDepth 8192 in
set_option maxHeartbeats 4000000 in
/-- The new rank-0 features over the two aggregations the first window left: the rectifier's call is the select of its
    argument against its 0.2-fold where it is below zero. -/
theorem w1_v58 (W : Valuation τ sig (Elt F)) :
    after ops1 W (main_v58 : DevRef τ sig)
      = fc0 (W (main_v14 : DevRef τ sig)) (W (main_v40 : DevRef τ sig)) (W (main_arg15 : DevRef τ sig)) (W (main_arg16 : DevRef τ sig)) := by
  after_results_simp
  rfl

set_option maxRecDepth 8192 in
set_option maxHeartbeats 4000000 in
/-- The new rank-3 features over the gathered rows and rank 3's own aggregation the first window left. -/
theorem w1_v65 (W : Valuation τ sig (Elt F)) :
    after ops1 W (main_v65 : DevRef τ sig)
      = fc3 (into3 (W (main_v48 : DevRef τ sig)) (W (main_arg10 : DevRef τ sig))) (W (main_v29 : DevRef τ sig)) (W (main_arg17 : DevRef τ sig)) (W (main_arg18 : DevRef τ sig)) := by
  after_results_simp
  rfl

end Window1

/-! ## The whole line at the two results -/

/-- The layer's new rank-0 features as one term of the argument arrays. -/
def out0 (x0 : FVec F S100000x64 .f32) (x1 : FVec F S300000x64 .f32) (e0 : IVec S2x800000 32) (t01 s01 : IVec S600000 32)
    (w0 w1 : FVec F S64x128 .f32) (fw : FVec F S128x128 .f32) (fb : FVec F S128 .f32) : FVec F S100000x128 .f32 :=
  fc0 (agg00 (proj0 x0 w0) e0) (agg10 (proj1 x1 w1) t01 s01) fw fb

/-- The layer's new rank-3 features as one term of the argument arrays. -/
def out3 (x2 : FVec F S150000x64 .f32) (x3 : FVec F S50000x64 .f32) (e3 : IVec S2x800000 32) (t23 s23 : IVec S200000 32)
    (w2 w3 : FVec F S64x128 .f32) (fw : FVec F S128x128 .f32) (fb : FVec F S128 .f32) : FVec F S50000x128 .f32 :=
  fc3 (agg23 (proj2 x2 w2) t23 s23) (agg33 (proj3 x3 w3) e3) fw fb

/-- The second window reads the first window's two rank-0 aggregations and the raw weight and bias, which the first
    window left as launched. -/
theorem line_v58 (V : Valuation τ sig (Elt F)) :
    after (ops0 ++ ops1) V (main_v58 : DevRef τ sig)
      = out0 (V (main_arg0 : DevRef τ sig)) (V (main_arg1 : DevRef τ sig)) (V (main_arg5 : DevRef τ sig)) (V (main_arg7 : DevRef τ sig)) (V (main_arg8 : DevRef τ sig))
          (V (main_arg11 : DevRef τ sig)) (V (main_arg13 : DevRef τ sig)) (V (main_arg15 : DevRef τ sig)) (V (main_arg16 : DevRef τ sig)) := by
  rw [StableHlo.after_append, w1_v58, w0_v14, w0_v40, (w0_args V).a15, (w0_args V).a16]
  rfl

/-- Likewise at rank 3: the gathered rows, rank 3's own aggregation, the destinations of the incidence and the raw
    weight and bias. -/
theorem line_v65 (V : Valuation τ sig (Elt F)) :
    after (ops0 ++ ops1) V (main_v65 : DevRef τ sig)
      = out3 (V (main_arg2 : DevRef τ sig)) (V (main_arg3 : DevRef τ sig)) (V (main_arg6 : DevRef τ sig)) (V (main_arg9 : DevRef τ sig)) (V (main_arg10 : DevRef τ sig))
          (V (main_arg14 : DevRef τ sig)) (V (main_arg12 : DevRef τ sig)) (V (main_arg17 : DevRef τ sig)) (V (main_arg18 : DevRef τ sig)) := by
  rw [StableHlo.after_append, w1_v65, w0_v48, w0_v29, (w0_args V).a10, (w0_args V).a17, (w0_args V).a18]
  rfl

/-- No operation of the line writes an argument array. -/
theorem line_args (V : Valuation τ sig (Elt F)) : ArgsKept (after (ops0 ++ ops1) V) V := by
  rw [StableHlo.after_append]
  exact (w1_args _).trans (w0_args V)

/-! ## At the exact instance the two terms are the specification's -/

theorem out0_spec (x0 : FVec Ideal S100000x64 .f32) (x1 : FVec Ideal S300000x64 .f32) (e0 : IVec S2x800000 32)
    (t01 s01 : IVec S600000 32) (w0 w1 : FVec Ideal S64x128 .f32) (fw : FVec Ideal S128x128 .f32) (fb : FVec Ideal S128 .f32) :
    out0 (F := Ideal) x0 x1 e0 t01 s01 w0 w1 fw fb = Cert.Spec.out0 x0 x1 e0 t01 s01 w0 w1 fw fb := rfl

theorem out3_spec (x2 : FVec Ideal S150000x64 .f32) (x3 : FVec Ideal S50000x64 .f32) (e3 : IVec S2x800000 32)
    (t23 s23 : IVec S200000 32) (w2 w3 : FVec Ideal S64x128 .f32) (fw : FVec Ideal S128x128 .f32) (fb : FVec Ideal S128 .f32) :
    out3 (F := Ideal) x2 x3 e3 t23 s23 w2 w3 fw fb = Cert.Spec.out3 x2 x3 e3 t23 s23 w2 w3 fw fb := rfl

end Cert.ReferenceIdeal.RefStages

end
-- ==== Proof.RefValue.lean ====
/-
  The reference's run: its @main is a straight line of host operations (the two calls of the leaky rectifier listed at
  their call sites), so every weakly fair execution terminates with each buffer at the operations' fold over the launch
  contents; read at the two computed results, the fold is the layer's two output functions of the argument arrays.
-/
import proofs.«115586_j31001073942736_1_alg».proof.Proof.RefLine
import proofs.«115586_j31001073942736_1_alg».proof.Proof.RefStages

noncomputable section

namespace Cert.ReferenceIdeal.RefValue

open Idealize.ShloMosaic Idealize.ShloMosaic.TcCoe Idealize.ShloMosaic.StableHlo Idealize.SL.Sem
open Cert.ReferenceIdeal Cert.ReferenceIdeal.Facts₀ Cert.ReferenceIdeal.Ops

/-- Every weakly fair execution of the reference terminates; the first and fourth results end at the layer's two output
    functions of the argument arrays, and the argument arrays end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58)
        = Cert.Spec.out0 (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg8))
            (m ((c.tc : Thread nD τ).loc main_arg11)) (m ((c.tc : Thread nD τ).loc main_arg13)) (m ((c.tc : Thread nD τ).loc main_arg15)) (m ((c.tc : Thread nD τ).loc main_arg16))
      ∧ r.2.mem ((c.tc : Thread nD τ).loc main_v65)
        = Cert.Spec.out3 (m ((c.tc : Thread nD τ).loc main_arg2)) (m ((c.tc : Thread nD τ).loc main_arg3)) (m ((c.tc : Thread nD τ).loc main_arg6)) (m ((c.tc : Thread nD τ).loc main_arg9)) (m ((c.tc : Thread nD τ).loc main_arg10))
            (m ((c.tc : Thread nD τ).loc main_arg14)) (m ((c.tc : Thread nD τ).loc main_arg12)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun r h c =>
    have K := RefStages.line_args (launchContents m c)
    ⟨(h c main_v58).trans ((RefStages.line_v58 _).trans (RefStages.out0_spec ..)),
      (h c main_v65).trans ((RefStages.line_v65 _).trans (RefStages.out3_spec ..)),
      (h c main_arg0).trans K.a0, (h c main_arg1).trans K.a1, (h c main_arg2).trans K.a2, (h c main_arg3).trans K.a3,
      (h c main_arg4).trans K.a4, (h c main_arg5).trans K.a5, (h c main_arg6).trans K.a6, (h c main_arg7).trans K.a7,
      (h c main_arg8).trans K.a8, (h c main_arg9).trans K.a9, (h c main_arg10).trans K.a10, (h c main_arg11).trans K.a11,
      (h c main_arg12).trans K.a12, (h c main_arg13).trans K.a13, (h c main_arg14).trans K.a14, (h c main_arg15).trans K.a15,
      (h c main_arg16).trans K.a16, (h c main_arg17).trans K.a17, (h c main_arg18).trans K.a18⟩)
    (RefLine.run_fold (F := Ideal) m ρ)

end Cert.ReferenceIdeal.RefValue

end
-- ==== Proof.lean ====
/-
  The certificate of a message-passing layer over a cell complex: four dense projections `x · W`, four
  aggregations along edge lists (gather the projected rows at one end of every edge, add them into the rows at the other
  end), and per output rank the map `leaky((a + b) · Wᵀ + bias)`, `leaky y = y` where `y ≥ 0` and `0.2 · y` elsewhere.

  The kernel's program computes the projections and the two outputs in six grid-pipelined regions, one row block per grid
  point, and the aggregations in host operations between them; the reference is host operations throughout. At the
  exact instance a change of float format is the identity and a block's product into a zero accumulator is the
  corresponding rows of the whole product, so each region leaves the array the reference's operation computes
  (Region0 … Region5), the host stretches between the regions are the reference's own operations on those arrays (KValue),
  and the reference's run is read to the same two functions of the argument arrays (RefValue). No law of the extended
  reals is needed beyond reading a sum of products at its rows, so the precondition is never opened.

  The kernel's frames are the generated ones (in their patched copies); the reference's frame is its run with the
  results dropped; the idealization rewrote nothing, so its conjunct is trivial.
-/
import proofs.«115586_j31001073942736_1_alg».proof.Defs
import proofs.«115586_j31001073942736_1_alg».proof.Proof.Gen.Kernel
import proofs.«115586_j31001073942736_1_alg».proof.Proof.Gen.KernelIdeal
import proofs.«115586_j31001073942736_1_alg».proof.Proof.Gen.ReferenceIdeal
import proofs.«115586_j31001073942736_1_alg».proof.Proof.Gen.Pre_finite_inputs
import proofs.«115586_j31001073942736_1_alg».proof.Proof.KernelFrame
import proofs.«115586_j31001073942736_1_alg».proof.Proof.KernelIdealFrame
import proofs.«115586_j31001073942736_1_alg».proof.Proof.KernelIdealRun
import proofs.«115586_j31001073942736_1_alg».proof.Proof.KValue
import proofs.«115586_j31001073942736_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- Both programs end with the first and fourth results at the layer's two output functions of the argument arrays, the
    second, third and fifth results the untouched arguments; the arguments agree, so the results do. -/
theorem algebraic : Cert.algebraic_KernelIdeal_ReferenceIdeal := by
  intro m ρ m' ρ' _ hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2),
    fun c => Cert.Spec.out3 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg14)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => m ((c.tc : Thread Cert.KernelIdeal.nD Cert.KernelIdeal.τ).loc Cert.KernelIdeal.main_arg4), ?_, ?_⟩
  · refine (θ_run Cert.KernelIdeal.defs _ _).mono (fun r h c => ?_) (Cert.KernelIdeal.GenP.run_values (F := Ideal) m ρ)
    obtain ⟨h54, h57, h0, h1, h2, h3, h4, rest⟩ := h c
    exact ⟨h54.trans (Cert.KernelIdeal.Val.result0 m ρ c), h1, h2, h57.trans (Cert.KernelIdeal.Val.result3 m ρ c), h4,
      h0, h1, h2, h3, h4, rest⟩
  · refine (θ_run Cert.ReferenceIdeal.defs _ _).mono (fun r h c => ?_) (Cert.ReferenceIdeal.RefValue.run m' ρ')
    obtain ⟨h58, h65, h0, h1, h2, h3, h4, rest⟩ := h c
    obtain ⟨e0, e1, e2, e3, e4, e5, e6, e7, e8, e9, e10, e11, e12, e13, e14, e15, e16, e17, e18⟩ := hagree c
    refine ⟨h58.trans ?_, h1.trans e1, h2.trans e2, h65.trans ?_, h4.trans e4, h0, h1, h2, h3, h4, rest⟩
    · rw [e0, e1, e5, e7, e8, e11, e13, e15, e16]
    · rw [e2, e3, e6, e9, e10, e14, e12, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
